-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x4096x1024 : Shape := ⟨3, ![4, 4096, 1024]⟩
abbrev S1024x1024 : Shape := ⟨2, ![1024, 1024]⟩
abbrev S4x16x4096x64 : Shape := ⟨4, ![4, 16, 4096, 64]⟩
abbrev S1x256x1024 : Shape := ⟨3, ![1, 256, 1024]⟩
abbrev S1x16x256x64 : Shape := ⟨4, ![1, 16, 256, 64]⟩
abbrev S256x1024 : Shape := ⟨2, ![256, 1024]⟩
abbrev S256x16x64 : Shape := ⟨3, ![256, 16, 64]⟩
abbrev S16x256x64 : Shape := ⟨3, ![16, 256, 64]⟩
abbrev S4x16x64x64 : Shape := ⟨4, ![4, 16, 64, 64]⟩
abbrev S1x16x1024x64 : Shape := ⟨4, ![1, 16, 1024, 64]⟩
abbrev S1x16x64x64 : Shape := ⟨4, ![1, 16, 64, 64]⟩
abbrev S16x64x64 : Shape := ⟨3, ![16, 64, 64]⟩
abbrev S16x1024x64 : Shape := ⟨3, ![16, 1024, 64]⟩
abbrev S1x16x512x64 : Shape := ⟨4, ![1, 16, 512, 64]⟩
abbrev S1x512x1024 : Shape := ⟨3, ![1, 512, 1024]⟩
abbrev S16x512x64 : Shape := ⟨3, ![16, 512, 64]⟩
abbrev S16x512 : Shape := ⟨2, ![16, 512]⟩
abbrev S16x512x1 : Shape := ⟨3, ![16, 512, 1]⟩
abbrev S512x16x64 : Shape := ⟨3, ![512, 16, 64]⟩
abbrev S512x1024 : Shape := ⟨2, ![512, 1024]⟩

abbrev nBuf : Space → Nat
  | .hbm => 22
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S4x16x4096x64, .f32⟩
  | .hbm, ⟨17, _⟩ => ⟨S4x16x4096x64, .f32⟩
  | .hbm, ⟨18, _⟩ => ⟨S4x16x4096x64, .f32⟩
  | .hbm, ⟨19, _⟩ => ⟨S4x16x4096x64, .f32⟩
  | .hbm, ⟨20, _⟩ => ⟨S4x16x64x64, .f32⟩
  | .hbm, ⟨21, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x16x256x64, .f32⟩
  | .local _ .vmem, ⟨7, _⟩ => ⟨S1x16x256x64, .f32⟩
  | .local _ .vmem, ⟨8, _⟩ => ⟨S1x16x256x64, .f32⟩
  | .local _ .vmem, ⟨9, _⟩ => ⟨S1x16x256x64, .f32⟩
  | .local _ .vmem, ⟨10, _⟩ => ⟨S1x16x256x64, .f32⟩
  | .local _ .vmem, ⟨11, _⟩ => ⟨S1x16x256x64, .f32⟩
  | .local _ .vmem, ⟨12, _⟩ => ⟨S1x16x256x64, .f32⟩
  | .local _ .vmem, ⟨13, _⟩ => ⟨S1x16x256x64, .f32⟩
  | .local _ .vmem, ⟨14, _⟩ => ⟨S1x16x1024x64, .f32⟩
  | .local _ .vmem, ⟨15, _⟩ => ⟨S1x16x1024x64, .f32⟩
  | .local _ .vmem, ⟨16, _⟩ => ⟨S1x16x1024x64, .f32⟩
  | .local _ .vmem, ⟨17, _⟩ => ⟨S1x16x1024x64, .f32⟩
  | .local _ .vmem, ⟨18, _⟩ => ⟨S1x16x64x64, .f32⟩
  | .local _ .vmem, ⟨19, _⟩ => ⟨S1x16x64x64, .f32⟩
  | .local _ .vmem, ⟨20, _⟩ => ⟨S16x64x64, .f32⟩
  | .local _ .vmem, ⟨21, _⟩ => ⟨S1x16x512x64, .f32⟩
  | .local _ .vmem, ⟨22, _⟩ => ⟨S1x16x512x64, .f32⟩
  | .local _ .vmem, ⟨23, _⟩ => ⟨S1x16x512x64, .f32⟩
  | .local _ .vmem, ⟨24, _⟩ => ⟨S1x16x512x64, .f32⟩
  | .local _ .vmem, ⟨25, _⟩ => ⟨S1x16x64x64, .f32⟩
  | .local _ .vmem, ⟨26, _⟩ => ⟨S1x16x64x64, .f32⟩
  | .local _ .vmem, ⟨27, _⟩ => ⟨S1024x1024, .bf16⟩
  | .local _ .vmem, ⟨28, _⟩ => ⟨S1x512x1024, .f32⟩
  | .local _ .vmem, ⟨29, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem4_1 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x16x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x16x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x16x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 8], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x16x64x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  transposes_S1024x1024_S1024x1024_1_0 : S1024x1024.Transposes [1, 0] S1024x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x16x64 : S256x1024.ShapeCasts S256x16x64
  transposes_S256x16x64_p1_0_2_S16x256x64 : S256x16x64.Transposes [1, 0, 2] S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  shapeCasts_S16x256x64_S1x16x256x64 : S16x256x64.ShapeCasts S1x16x256x64
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  inb_S1x16x1024x64_S1x16x1024x64_0_0_0_0 : ∀ a, (![0, 0, 0, 0] : Fin 4 → Nat) a + S1x16x1024x64.size a ≤ S1x16x1024x64.size a
  h_S1x16x1024x64 : 0 < S1x16x1024x64.numel
  shapeCasts_S1x16x1024x64_S16x1024x64 : S1x16x1024x64.ShapeCasts S16x1024x64
  inb_S1x16x64x64_S1x16x64x64_0_0_0_0 : ∀ a, (![0, 0, 0, 0] : Fin 4 → Nat) a + S1x16x64x64.size a ≤ S1x16x64x64.size a
  h_S1x16x64x64 : 0 < S1x16x64x64.numel
  shapeCasts_S1x16x64x64_S16x64x64 : S1x16x64x64.ShapeCasts S16x64x64
  shapeCasts_S16x64x64_S1x16x64x64 : S16x64x64.ShapeCasts S1x16x64x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  reduces_S16x512x64_S16x512 : S16x512x64.Reduces [2] S16x512
  shapeCasts_S16x512_S16x512x1 : S16x512.ShapeCasts S16x512x1
  broadcasts_S16x512x1_S16x512x64 : S16x512x1.Broadcasts S16x512x64
  transposes_S16x512x64_p1_0_2_S512x16x64 : S16x512x64.Transposes [1, 0, 2] S512x16x64
  shapeCasts_S512x16x64_S512x1024 : S512x16x64.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S256x1024_S1024x1024_S256x1024_1_0_0_1_n_n_wf : DotDims.WF S256x1024 S1024x1024 S256x1024 [1] [0] [0] [1] [] []
  dot_S16x1024x64_S16x1024x64_S16x64x64_1_1_2_2_0_0_wf : DotDims.WF S16x1024x64 S16x1024x64 S16x64x64 [1] [1] [2] [2] [0] [0]
  dot_S16x512x64_S16x64x64_S16x512x64_2_1_1_2_0_0_wf : DotDims.WF S16x512x64 S16x64x64 S16x512x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256x64.size a ≤ S4x16x4096x64.size a
  hwx0_5 : ∀ i : grid0.Coords, EltTy.bits .f32 = 32 ∨ (Rect.block (s := S4x16x4096x64) S1x16x256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x256x64.size a ≤ S4x16x4096x64.size a
  hwx0_6 : ∀ i : grid0.Coords, EltTy.bits .f32 = 32 ∨ (Rect.block (s := S4x16x4096x64) S1x16x256x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x256x64.size a ≤ S4x16x4096x64.size a
  hwx0_7 : ∀ i : grid0.Coords, EltTy.bits .f32 = 32 ∨ (Rect.block (s := S4x16x4096x64) S1x16x256x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x256x64.size a ≤ S4x16x4096x64.size a
  hwx0_8 : ∀ i : grid0.Coords, EltTy.bits .f32 = 32 ∨ (Rect.block (s := S4x16x4096x64) S1x16x256x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x1024x64.size a ≤ S4x16x4096x64.size a
  hwx1_0 : ∀ i : grid1.Coords, EltTy.bits .f32 = 32 ∨ (Rect.block (s := S4x16x4096x64) S1x16x1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x16x1024x64.size a ≤ S4x16x4096x64.size a
  hwx1_1 : ∀ i : grid1.Coords, EltTy.bits .f32 = 32 ∨ (Rect.block (s := S4x16x4096x64) S1x16x1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x16x64x64.size a ≤ S4x16x64x64.size a
  hwx1_2 : ∀ i : grid1.Coords, EltTy.bits .f32 = 32 ∨ (Rect.block (s := S4x16x64x64) S1x16x64x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S4x16x4096x64.size a
  hwx2_0 : ∀ i : grid2.Coords, EltTy.bits .f32 = 32 ∨ (Rect.block (s := S4x16x4096x64) S1x16x512x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x16x512x64.size a ≤ S4x16x4096x64.size a
  hwx2_1 : ∀ i : grid2.Coords, EltTy.bits .f32 = 32 ∨ (Rect.block (s := S4x16x4096x64) S1x16x512x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x16x64x64.size a ≤ S4x16x64x64.size a
  hwx2_2 : ∀ i : grid2.Coords, EltTy.bits .f32 = 32 ∨ (Rect.block (s := S4x16x64x64) S1x16x64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x1024.size a ≤ S4x4096x1024.size a
  hwx2_4 : ∀ i : grid2.Coords, EltTy.bits .f32 = 32 ∨ (Rect.block (s := S4x4096x1024) S1x512x1024.size (cc2_transform_4 i) (hinb2_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S16x1024x64_S16x1024x64_S16x64x64_1_1_2_2_0_0 : DotDims S16x1024x64 S16x1024x64 S16x64x64 where
  lhsContracting := [1]
  rhsContracting := [1]
  lhsNonContracting := [2]
  rhsNonContracting := [2]
  lhsBatch := [0]
  rhsBatch := [0]
  wf := dot_S16x1024x64_S16x1024x64_S16x64x64_1_1_2_2_0_0_wf
def dot_S16x512x64_S16x64x64_S16x512x64_2_1_1_2_0_0 : DotDims S16x512x64 S16x64x64 S16x512x64 where
  lhsContracting := [2]
  rhsContracting := [1]
  lhsNonContracting := [1]
  rhsNonContracting := [2]
  lhsBatch := [0]
  rhsBatch := [0]
  wf := dot_S16x512x64_S16x64x64_S16x512x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S1x16x256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S1x16x256x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_2) S1x16x256x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_3) S1x16x256x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v10_1) S1x16x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_2) S1x16x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x16x64x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10_0) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10_3) S1x16x512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x16x64x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x512x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x16x64 : Shape := ⟨4, ![4, 4096, 16, 64]⟩
abbrev S4x16x4096x64 : Shape := ⟨4, ![4, 16, 4096, 64]⟩
abbrev S_ : Shape := ⟨0, ![]⟩
abbrev S4x16x64x64 : Shape := ⟨4, ![4, 16, 64, 64]⟩
abbrev S4x16x4096 : Shape := ⟨3, ![4, 16, 4096]⟩
abbrev S4x16x4096x1 : Shape := ⟨4, ![4, 16, 4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x4096x1024, .f32⟩
  | .hbm, ⟨7, _⟩ => ⟨S4x4096x16x64, .f32⟩
  | .hbm, ⟨8, _⟩ => ⟨S4x16x4096x64, .f32⟩
  | .hbm, ⟨9, _⟩ => ⟨S_, .f32⟩
  | .hbm, ⟨10, _⟩ => ⟨S4x16x4096x64, .f32⟩
  | .hbm, ⟨11, _⟩ => ⟨S4x16x4096x64, .f32⟩
  | .hbm, ⟨12, _⟩ => ⟨S_, .f32⟩
  | .hbm, ⟨13, _⟩ => ⟨S4x16x4096x64, .f32⟩
  | .hbm, ⟨14, _⟩ => ⟨S4x16x4096x64, .f32⟩
  | .hbm, ⟨15, _⟩ => ⟨S4x4096x1024, .f32⟩
  | .hbm, ⟨16, _⟩ => ⟨S4x4096x16x64, .f32⟩
  | .hbm, ⟨17, _⟩ => ⟨S4x16x4096x64, .f32⟩
  | .hbm, ⟨18, _⟩ => ⟨S_, .f32⟩
  | .hbm, ⟨19, _⟩ => ⟨S4x16x4096x64, .f32⟩
  | .hbm, ⟨20, _⟩ => ⟨S4x16x4096x64, .f32⟩
  | .hbm, ⟨21, _⟩ => ⟨S_, .f32⟩
  | .hbm, ⟨22, _⟩ => ⟨S4x16x4096x64, .f32⟩
  | .hbm, ⟨23, _⟩ => ⟨S4x16x4096x64, .f32⟩
  | .hbm, ⟨24, _⟩ => ⟨S4x4096x1024, .f32⟩
  | .hbm, ⟨25, _⟩ => ⟨S4x4096x16x64, .f32⟩
  | .hbm, ⟨26, _⟩ => ⟨S4x16x4096x64, .f32⟩
  | .hbm, ⟨27, _⟩ => ⟨S4x4096x1024, .f32⟩
  | .hbm, ⟨28, _⟩ => ⟨S4x4096x16x64, .f32⟩
  | .hbm, ⟨29, _⟩ => ⟨S4x16x4096x64, .f32⟩
  | .hbm, ⟨30, _⟩ => ⟨S4x16x4096x64, .f32⟩
  | .hbm, ⟨31, _⟩ => ⟨S4x16x4096x64, .f32⟩
  | .hbm, ⟨32, _⟩ => ⟨S_, .f32⟩
  | .hbm, ⟨33, _⟩ => ⟨S4x16x4096x64, .f32⟩
  | .hbm, ⟨34, _⟩ => ⟨S4x16x4096x64, .f32⟩
  | .hbm, ⟨35, _⟩ => ⟨S_, .f32⟩
  | .hbm, ⟨36, _⟩ => ⟨S4x16x4096x64, .f32⟩
  | .hbm, ⟨37, _⟩ => ⟨S4x16x4096x64, .f32⟩
  | .hbm, ⟨38, _⟩ => ⟨S4x16x4096x64, .f32⟩
  | .hbm, ⟨39, _⟩ => ⟨S4x16x64x64, .f32⟩
  | .hbm, ⟨40, _⟩ => ⟨S4x16x4096x64, .f32⟩
  | .hbm, ⟨41, _⟩ => ⟨S_, .f32⟩
  | .hbm, ⟨42, _⟩ => ⟨S4x16x4096x64, .f32⟩
  | .hbm, ⟨43, _⟩ => ⟨S4x16x4096x64, .f32⟩
  | .hbm, ⟨44, _⟩ => ⟨S4x16x4096x64, .f32⟩
  | .hbm, ⟨45, _⟩ => ⟨S_, .f32⟩
  | .hbm, ⟨46, _⟩ => ⟨S4x16x4096, .f32⟩
  | .hbm, ⟨47, _⟩ => ⟨S4x16x4096x1, .f32⟩
  | .hbm, ⟨48, _⟩ => ⟨S4x16x4096x1, .f32⟩
  | .hbm, ⟨49, _⟩ => ⟨S_, .f32⟩
  | .hbm, ⟨50, _⟩ => ⟨S4x16x4096x1, .f32⟩
  | .hbm, ⟨51, _⟩ => ⟨S4x16x4096x1, .f32⟩
  | .hbm, ⟨52, _⟩ => ⟨S4x16x4096x64, .f32⟩
  | .hbm, ⟨53, _⟩ => ⟨S4x16x4096x64, .f32⟩
  | .hbm, ⟨54, _⟩ => ⟨S4x16x4096x64, .f32⟩
  | .hbm, ⟨55, _⟩ => ⟨S4x4096x16x64, .f32⟩
  | .hbm, ⟨56, _⟩ => ⟨S4x4096x1024, .f32⟩
  | .hbm, ⟨57, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call2_v0 : Ref sig .tc := ⟨.hbm, 30, rfl⟩
abbrev main_call2_v1 : Ref sig .tc := ⟨.hbm, 31, rfl⟩
abbrev main_call2_cst : Ref sig .tc := ⟨.hbm, 32, rfl⟩
abbrev main_call2_v2 : Ref sig .tc := ⟨.hbm, 33, rfl⟩
abbrev main_call2_v3 : Ref sig .tc := ⟨.hbm, 34, rfl⟩
abbrev main_call2_cst_0 : Ref sig .tc := ⟨.hbm, 35, rfl⟩
abbrev main_call2_v4 : Ref sig .tc := ⟨.hbm, 36, rfl⟩
abbrev main_call2_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_call3_v0 : Ref sig .tc := ⟨.hbm, 44, rfl⟩
abbrev main_call3_cst : Ref sig .tc := ⟨.hbm, 45, rfl⟩
abbrev main_call3_v1 : Ref sig .tc := ⟨.hbm, 46, rfl⟩
abbrev main_call3_v2 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩

abbrev nD : Nat := 1
abbrev τ : Topo := Topo.v7x

variable {F : FTy → Type} [FloatOps F]

class Facts₀ : Prop where
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  bcast_S_S4x16x4096x64 : S_.BroadcastsInDim S4x16x4096x64 (![] : Fin 0 → Fin S4x16x4096x64.rank)
  reducesTo_S4x16x4096x64_S4x16x4096_d3 : S4x16x4096x64.ReducesTo [3] S4x16x4096
  h_S_ : 0 < S_.numel
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  bcast_S4x16x4096x1_S4x16x4096x64_0_1_2_3 : S4x16x4096x1.BroadcastsInDim S4x16x4096x64 (![0, 1, 2, 3] : Fin 4 → Fin S4x16x4096x64.rank)
  transposes_S4x16x4096x64_S4x4096x16x64_0_2_1_3 : S4x16x4096x64.Transposes [0, 2, 1, 3] S4x4096x16x64
  shapeCasts_S4x4096x16x64_S4x4096x1024 : S4x4096x16x64.ShapeCasts S4x4096x1024
  dot_S4x4096x1024_S1024x1024_S4x4096x1024_2_1_01_0_n_n_wf : DotDims.WF S4x4096x1024 S1024x1024 S4x4096x1024 [2] [1] [0, 1] [0] [] []
  dot_S4x16x4096x64_S4x16x4096x64_S4x16x64x64_2_2_3_3_01_01_wf : DotDims.WF S4x16x4096x64 S4x16x4096x64 S4x16x64x64 [2] [2] [3] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x16x4096x64_S4x16x4096x64_S4x16x64x64_2_2_3_3_01_01 : DotDims S4x16x4096x64 S4x16x4096x64 S4x16x64x64 where
  lhsContracting := [2]
  rhsContracting := [2]
  lhsNonContracting := [3]
  rhsNonContracting := [3]
  lhsBatch := [0, 1]
  rhsBatch := [0, 1]
  wf := dot_S4x16x4096x64_S4x16x4096x64_S4x16x64x64_2_2_3_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf

class Facts : Prop extends Facts₀ where

variable [Facts]
-- ==== Proof.FrameR0.lean ====
import proofs.«118667_j67336497267250_1_alg».proof.Proof.Gen.KernelIdeal.Launch
import proofs.«118667_j67336497267250_1_alg».proof.Proof.Gen.KernelIdeal.Skeleton
import proofs.«118667_j67336497267250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The projection kernel (the first pallas_call), at any entry contents `V`

One grid point (b, lt) reads a 256-row slab of x[b] and the four transposed weight matrices, and writes one
[16, 256, 64] block of each of q, k, v, u: the slab times a weight matrix, an activation, and the head split
(a row of 1024 features regrouped as 16 heads of 64 and the head axis moved to the front). What each output
block holds after the body is the body's own payload of the loaded blocks; the inputs' staging buffers are
left as found.
-/

variable (V : (c : Dev nD) → (b : Ref sig .tc) → Buf (Elt F) ((c : Thread nD τ).loc b))

/-- Window `w`'s block at grid point `t`, read off its array at the region's entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's staging buffer holds its block at every point: a block that is not fetched again has
not moved (the weights' block index is constant over the grid). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole slab of x, a whole weight matrix, a whole output block: the body's only access rectangles. -/
abbrev rX0 : Rect S1x256x1024 := Rect.unit (s := S1x256x1024) ![0, 0, 0] S1x256x1024.size inb_S1x256x1024_S1x256x1024_0_0_0
abbrev rW0 : Rect S1024x1024 := Rect.unit (s := S1024x1024) ![0, 0] S1024x1024.size inb_S1024x1024_S1024x1024_0_0
abbrev rO0 : Rect S1x16x256x64 := Rect.unit (s := S1x16x256x64) ![0, 0, 0, 0] S1x16x256x64.size inb_S1x16x256x64_S1x16x256x64_0_0_0_0

/-- The q block: relu of the slab times Wqᵀ, scaled by 1/8, heads split. -/
def out0_5 (x0 : Vec F S1x256x1024 .f32) (w1 : Vec F S1024x1024 .bf16) : Vec F S1x16x256x64 .f32 :=
  View.canon [⟨rO0, k0_pay7 (View.ld x0 rX0) (View.ld w1 rW0)⟩]
/-- The k block: the same with Wkᵀ. -/
def out0_6 (x0 : Vec F S1x256x1024 .f32) (w2 : Vec F S1024x1024 .bf16) : Vec F S1x16x256x64 .f32 :=
  View.canon [⟨rO0, k0_pay1 (k0_pay8 (View.ld x0 rX0) (View.ld w2 rW0))⟩]
/-- The v block: the slab times Wvᵀ, heads split. -/
def out0_7 (x0 : Vec F S1x256x1024 .f32) (w3 : Vec F S1024x1024 .bf16) : Vec F S1x16x256x64 .f32 :=
  View.canon [⟨rO0, k0_pay2 (k0_pay5 (View.ld x0 rX0) (View.ld w3 rW0))⟩]
/-- The u block: silu of the slab times Wuᵀ, heads split. -/
def out0_8 (x0 : Vec F S1x256x1024 .f32) (w4 : Vec F S1024x1024 .bf16) : Vec F S1x16x256x64 .f32 :=
  View.canon [⟨rO0, k0_pay3 (k0_pay6 (View.ld x0 rX0) (View.ld w4 rW0))⟩]

/-- One whole-block store covers the block. -/
theorem cover0_O (p0 : Vec F S1x16x256x64 .f32) (y : S1x16x256x64.Idx) :
    ∃ pc ∈ ([⟨rO0, p0⟩] : List (View.Piece (Elt F) S1x16x256x64 .f32)), y ∈ pc.1.set :=
  View.cover_of_tiled [⟨rO0, p0⟩] S1x16x256x64.size (by rfl) y

set_option maxHeartbeats 4000000 in
/-- The body on whole staging memrefs: the inputs' at contents `x0, w1 … w4`, the outputs' at anything; it ends with
    the inputs' as they were and the four outputs' at their blocks. -/
theorem sound_kernel0 (c : Dev nD) (E : Set ℕ) (i : grid0.Coords)
    (arg2 : Memref sig .tc .vmem S1x256x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1024x1024 .bf16) (harg6 : arg6.IsWhole)
    (arg7 : Memref sig .tc .vmem S1x16x256x64 .f32) (harg7 : arg7.IsWhole)
    (arg8 : Memref sig .tc .vmem S1x16x256x64 .f32) (harg8 : arg8.IsWhole)
    (arg9 : Memref sig .tc .vmem S1x16x256x64 .f32) (harg9 : arg9.IsWhole)
    (arg10 : Memref sig .tc .vmem S1x16x256x64 .f32) (harg10 : arg10.IsWhole)
    (x0 : Vec F S1x256x1024 .f32) (w1 w2 w3 w4 : Vec F S1024x1024 .bf16) (K : PUnit → sProp 𝕄) :
    iprop(owns (c : Thread nD τ) arg2 fullShare x0 ∗ owns (c : Thread nD τ) arg3 fullShare w1 ∗ owns (c : Thread nD τ) arg4 fullShare w2
        ∗ owns (c : Thread nD τ) arg5 fullShare w3 ∗ owns (c : Thread nD τ) arg6 fullShare w4
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare w1 ∗ owns (c : Thread nD τ) arg4 fullShare w2
            ∗ owns (c : Thread nD τ) arg5 fullShare w3 ∗ owns (c : Thread nD τ) arg6 fullShare w4
            ∗ owns (c : Thread nD τ) arg7 fullShare (out0_5 x0 w1) ∗ owns (c : Thread nD τ) arg8 fullShare (out0_6 x0 w2)
            ∗ owns (c : Thread nD τ) arg9 fullShare (out0_7 x0 w3) ∗ owns (c : Thread nD τ) arg10 fullShare (out0_8 x0 w4)) -∗ K ⟨⟩))
      ⊢ wp frame (wpE (defs₀ (F := F)) Variants.none c none) E
          (cc0__proj_kernel i arg2 harg2 arg3 harg3 arg4 harg4 arg5 harg5 arg6 harg6 arg7 harg7 arg8 harg8 arg9 harg9 arg10 harg10) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_O _)
  isplitl [H6]
  · iexists _; isplitr
    swap; · iexact H6
    ipureintro
    exact View.read_writes_eq_canon _ _ _ (cover0_O _)
  isplitl [H7]
  · iexists _; isplitr
    swap; · iexact H7
    ipureintro
    exact View.read_writes_eq_canon _ _ _ (cover0_O _)
  iexists _; isplitr
  swap; · iexact H8
  ipureintro
  exact View.read_writes_eq_canon _ _ _ (cover0_O _)

/-- The proof data of the first pipeline on core `c`: the arrays as the region finds them; after the body the
    inputs' buffers at their blocks and the outputs' at their payloads; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t)
    | ⟨6, _⟩ => out0_6 (iblk0 V c 0 t) (iblk0 V c 2 t)
    | ⟨7, _⟩ => out0_7 (iblk0 V c 0 t) (iblk0 V c 3 t)
    | ⟨8, _⟩ => out0_8 (iblk0 V c 0 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 2 t) := by dsimp only [dat0]
theorem after0_7 (c : Dev nD) (t : Fin cfg0.N) : (dat0 V c).after 7 t = out0_7 (iblk0 V c 0 t) (iblk0 V c 3 t) := by dsimp only [dat0]
theorem after0_8 (c : Dev nD) (t : Fin cfg0.N) : (dat0 V c).after 8 t = out0_8 (iblk0 V c 0 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 4000000 in
/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameR1.lean ====
import proofs.«118667_j67336497267250_1_alg».proof.Proof.Gen.KernelIdeal.Launch
import proofs.«118667_j67336497267250_1_alg».proof.Proof.Gen.KernelIdeal.Skeleton
import proofs.«118667_j67336497267250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The state kernel (the second pallas_call), at any entry contents `V`

Grid point (b, lt) reads a [16, 1024, 64] block of k[b] and of v[b] and adds, per head, kᵀ·v over the block's 1024
positions into a [16, 64, 64] accumulator kept in a scratch buffer between points; the accumulator is cleared first when
lt = 0, and after the addition it is copied to the output's staging buffer. The output block's index depends on b only,
so it is written back once per b, after the last of the four points, holding the sum over all 4096 positions.
-/

variable (V : (c : Dev nD) → (b : Ref sig .tc) → Buf (Elt F) ((c : Thread nD τ).loc b))

/-- Window `w`'s block at grid point `t`, read off its array at the region's entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The scratch operand: a whole scoped buffer of the kernel's own. -/
abbrev scM1 : Memref sig .tc .vmem S16x64x64 .f32 := Memref.whole cc1_scratch0

/-- The body's branch condition (the accumulator is cleared), from the grid coordinates. -/
abbrev cond1 (i : grid1.Coords) : Prop := (Scalar.cmpi .ne (Scalar.extui (Scalar.cmpi .eq (BitVec.ofNat 32 (i 1).val) 0#32)) 0#32) = 1#1
/-- It holds at the points ≡ 0 (mod 4): the first point of each b. -/
theorem hcond1 : ∀ t : Fin cfg1.N, cond1 (grid1.coords t) ↔ t.val % 4 = 0 :=
  (by decide +kernel : ∀ t : Fin grid1.N, cond1 (grid1.coords t) ↔ t.val % 4 = 0)

/-- The accumulator after a point that clears it first: the block's kᵀ·v added to zero. -/
def reset1 (x0 x1 : Vec F S1x16x1024x64 .f32) : Vec F S16x64x64 .f32 := k1_pay2 x0 x1 (k1_pay1 (F := F))
/-- The accumulator after any other point: the block's kᵀ·v added to what the point before left. -/
def step1 (x0 x1 : Vec F S1x16x1024x64 .f32) (xs : Vec F S16x64x64 .f32) : Vec F S16x64x64 .f32 := k1_pay2 x0 x1 xs

/-- THE ACCUMULATION: what the scratch holds after the body at position `n`. -/
def accAt1 (c : Dev nD) : (n : ℕ) → n < cfg1.N → Vec F S16x64x64 .f32
  | 0, hn => reset1 (iblk1 V c 0 ⟨0, hn⟩) (iblk1 V c 1 ⟨0, hn⟩)
  | n + 1, hn =>
    if (n + 1) % 4 = 0 then reset1 (iblk1 V c 0 ⟨n + 1, hn⟩) (iblk1 V c 1 ⟨n + 1, hn⟩)
    else step1 (iblk1 V c 0 ⟨n + 1, hn⟩) (iblk1 V c 1 ⟨n + 1, hn⟩) (accAt1 c n (Nat.lt_of_succ_lt hn))

theorem accAt1_reset (c : Dev nD) (t : Fin cfg1.N) (h : t.val % 4 = 0) :
    accAt1 V c t.val t.isLt = reset1 (iblk1 V c 0 t) (iblk1 V c 1 t) := by
  obtain ⟨n, hn⟩ := t
  cases n with
  | zero => rfl
  | succ n => exact (if_pos h)

theorem accAt1_step (c : Dev nD) (t : Fin cfg1.N) (h : ¬t.val % 4 = 0) :
    accAt1 V c t.val t.isLt = step1 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact (if_neg h)

/-- The invariant between points: before the first point nothing is known of the scratch; afterwards it holds the
    accumulator as the point before left it (the kernel's other scoped buffers and the generator register at anything). -/
def PhiS1 (c : Dev nD) : (n : ℕ) → n ≤ cfg1.N → sProp 𝕄
  | 0, _ => Pipeline.ΦA spec1 c
  | n + 1, hn => iprop(owns (c : Thread nD τ) scM1 fullShare (accAt1 V c n hn)
      ∗ (∀ d, owns (c : Thread nD τ) scM1 fullShare d -∗ Pipeline.ΦA spec1 c))

/-- The proof data of the second pipeline on core `c`: the arrays as the region finds them; after the body the inputs'
    buffers at their blocks and the output's at the accumulator; the scratch carried in the invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The body's only access rectangles: the whole scratch, a whole input block, the whole output block. -/
abbrev rS1 : Rect S16x64x64 := Rect.unit (s := S16x64x64) ![0, 0, 0] S16x64x64.size inb_S16x64x64_S16x64x64_0_0_0
abbrev rI1 : Rect S1x16x1024x64 := Rect.unit (s := S1x16x1024x64) ![0, 0, 0, 0] S1x16x1024x64.size inb_S1x16x1024x64_S1x16x1024x64_0_0_0_0
abbrev rO1 : Rect S1x16x64x64 := Rect.unit (s := S1x16x64x64) ![0, 0, 0, 0] S1x16x64x64.size inb_S1x16x64x64_S1x16x64x64_0_0_0_0

/-- Their offsets are all zero. -/
theorem hz3 : (![0, 0, 0] : Fin 3 → ℕ) = fun _ => 0 := by funext a; fin_cases a <;> rfl
theorem hz4 : (![0, 0, 0, 0] : Fin 4 → ℕ) = fun _ => 0 := by funext a; fin_cases a <;> rfl

/-- A whole-buffer store, last, covers the buffer whatever was stored before. -/
theorem cover1_S (p : Vec F S16x64x64 .f32) (L : List (View.Piece (Elt F) S16x64x64 .f32)) (y : S16x64x64.Idx) :
    ∃ pc ∈ ((⟨rS1, p⟩ : View.Piece (Elt F) S16x64x64 .f32) :: L), y ∈ pc.1.set :=
  ⟨_, List.mem_cons_self, View.mem_set_unit_zero hz3 inb_S16x64x64_S16x64x64_0_0_0 y⟩
theorem cover1_O (p : Vec F S1x16x64x64 .f32) (y : S1x16x64x64.Idx) :
    ∃ pc ∈ ([⟨rO1, p⟩] : List (View.Piece (Elt F) S1x16x64x64 .f32)), y ∈ pc.1.set :=
  ⟨_, List.mem_cons_self, View.mem_set_unit_zero hz4 inb_S1x16x64x64_S1x16x64x64_0_0_0_0 y⟩

/-- A load of the whole scratch after a whole-buffer store reads what was stored, whatever was stored before. -/
theorem readCov1_S {κ : Kind} {sp : Space} (v : View sig κ sp S16x64x64 .f32) (p : Vec F S16x64x64 .f32)
    (L : List (View.Piece (Elt F) S16x64x64 .f32)) :
    v.readCov ((⟨rS1, p⟩ : View.Piece (Elt F) S16x64x64 .f32) :: L) rS1.toLoadRect = p := by
  rw [View.readCov_eq_canon_ld _ _ _ (cover1_S p L), View.canon_cons_unit_zero hz3, View.ld_unit_zero hz3]

set_option maxHeartbeats 4000000 in
/-- The body at a point that does not clear the accumulator, on whole memrefs: the inputs' at `x0`, `x1`, the scratch at
    `xs`, the output's at anything; it ends with the scratch at `step1 x0 x1 xs` and the output's at its regrouping. -/
theorem sound_kernel1_step (c : Dev nD) (E : Set ℕ) (i : grid1.Coords) (hnc : ¬cond1 i)
    (arg2 : Memref sig .tc .vmem S1x16x1024x64 .f32) (harg2 : arg2.IsWhole)
    (arg3 : Memref sig .tc .vmem S1x16x1024x64 .f32) (harg3 : arg3.IsWhole)
    (arg4 : Memref sig .tc .vmem S1x16x64x64 .f32) (harg4 : arg4.IsWhole)
    (arg5 : Memref sig .tc .vmem S16x64x64 .f32) (harg5 : arg5.IsWhole)
    (x0 x1 : Vec F S1x16x1024x64 .f32) (xs : Vec F S16x64x64 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay3 (step1 x0 x1 xs))
            ∗ owns (c : Thread nD τ) arg5 fullShare (step1 x0 x1 xs)) -∗ K ⟨⟩))
      ⊢ wp frame (wpE (defs₀ (F := F)) Variants.none c none) E
          (cc1__state_kernel i arg2 harg2 arg3 harg3 arg4 harg4 arg5 harg5) K := by
  simp only [cc1__state_kernel_eq_skeleton]; unfold cc1__state_kernel_skel
  unfold owns
  iintro ⟨⟨%f0, %hf0, H0⟩, ⟨%f1, %hf1, H1⟩, ⟨%d4, %f4, -, H4⟩, ⟨%f5, %hf5, H5⟩, Hk⟩
  subst hf0; subst hf1; subst hf5
  sl_exec (disch := first | exact hnc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (cover1_O _), View.canon_unit_zero hz4,
      View.readCov_unit_zero (S := S16x64x64) _ hz3]
    simp only [View.readAt_eq_ld, View.ld_unit_zero (S := S16x64x64) hz3, View.ld_unit_zero (S := S1x16x1024x64) hz4]
    rfl
  iexists _; isplitr
  swap; · iexact H5
  ipureintro
  sl_unfold_words
  rw [View.read_writes_eq_canon _ _ _ (cover1_S _ _), View.canon_unit_zero hz3]
  simp only [View.readAt_eq_ld, View.ld_unit_zero (S := S16x64x64) hz3, View.ld_unit_zero (S := S1x16x1024x64) hz4]
  rfl

set_option maxHeartbeats 4000000 in
/-- The body at a point that clears the accumulator first: the scratch is found at anything and left at `reset1 x0 x1`. -/
theorem sound_kernel1_reset (c : Dev nD) (E : Set ℕ) (i : grid1.Coords) (hc : cond1 i)
    (arg2 : Memref sig .tc .vmem S1x16x1024x64 .f32) (harg2 : arg2.IsWhole)
    (arg3 : Memref sig .tc .vmem S1x16x1024x64 .f32) (harg3 : arg3.IsWhole)
    (arg4 : Memref sig .tc .vmem S1x16x64x64 .f32) (harg4 : arg4.IsWhole)
    (arg5 : Memref sig .tc .vmem S16x64x64 .f32) (harg5 : arg5.IsWhole)
    (x0 x1 : Vec F S1x16x1024x64 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay3 (reset1 x0 x1))
            ∗ owns (c : Thread nD τ) arg5 fullShare (reset1 x0 x1)) -∗ K ⟨⟩))
      ⊢ wp frame (wpE (defs₀ (F := F)) Variants.none c none) E
          (cc1__state_kernel i arg2 harg2 arg3 harg3 arg4 harg4 arg5 harg5) K := by
  simp only [cc1__state_kernel_eq_skeleton]; unfold cc1__state_kernel_skel
  unfold owns
  iintro ⟨⟨%f0, %hf0, H0⟩, ⟨%f1, %hf1, H1⟩, ⟨%d4, %f4, -, H4⟩, ⟨%d5, %f5, -, H5⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [View.read_writes_eq_canon _ _ _ (cover1_O _), View.canon_unit_zero hz4, readCov1_S, readCov1_S]
    simp only [View.readAt_eq_ld, View.ld_unit_zero (S := S1x16x1024x64) hz4]
    rfl
  iexists _; isplitr
  swap; · iexact H5
  ipureintro
  sl_unfold_words
  rw [View.read_writes_eq_canon _ _ _ (cover1_S _ _), View.canon_cons_unit_zero hz3, readCov1_S]
  simp only [View.readAt_eq_ld, View.ld_unit_zero (S := S1x16x1024x64) hz4]
  rfl

/-- The class invariant hands out the scratch at some contents, and takes it back at any. -/
theorem PhiA1_open (c : Dev nD) :
    (Pipeline.ΦA spec1 c : sProp 𝕄) ⊢ iprop((∃ d, owns (c : Thread nD τ) scM1 fullShare d)
      ∗ (∀ d, owns (c : Thread nD τ) scM1 fullShare d -∗ Pipeline.ΦA spec1 c)) := by
  have hsplit : (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
    Pipeline.scopedRest_split_of_list spec1 c [cc1_scratch0] (by decide) (by decide)
  unfold Pipeline.ΦA
  rw [hsplit]
  simp only [owns_whole]
  iintro ⟨⟨⟨%f, Hs⟩, Hr⟩, Hg⟩
  isplitl [Hs]
  · iexists f; iexact Hs
  iintro %d Hs
  isplitr [Hg]
  · isplitl [Hs]
    · iexists d; iexact Hs
    iexact Hr
  iexact Hg

/-- The invariant at a point's start, restated at the point's position. -/
theorem PhiS1_castSucc (c : Dev nD) (t : Fin cfg1.N) :
    (dat1 V c).Φ t.castSucc = PhiS1 V c t.val (Nat.le_of_lt t.isLt) := rfl

theorem PhiS1_zero (c : Dev nD) (n : ℕ) (h : n ≤ cfg1.N) (hz : n = 0) : PhiS1 V c n h = Pipeline.ΦA spec1 c := by
  subst hz; rfl

/-- Before a point that is not the first: the scratch at what the point before left, and the way back. -/
theorem PhiS1_pos (c : Dev nD) (n : ℕ) (h : n ≤ cfg1.N) (hz : n ≠ 0) :
    PhiS1 V c n h = iprop(owns (c : Thread nD τ) scM1 fullShare (accAt1 V c (n - 1) (by omega))
      ∗ (∀ d, owns (c : Thread nD τ) scM1 fullShare d -∗ Pipeline.ΦA spec1 c)) := by
  cases n with
  | zero => exact absurd rfl hz
  | succ n => rfl

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
/-- The body at any point: the inputs' memrefs hold their blocks; the position says whether the accumulator is cleared;
    the invariant hands the body the scratch (at anything before the first point, at what the point before left
    afterwards) and takes it back at this point's accumulator; the way back to the class invariant passes through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    show (dat1 V c).Φ t.succ = iprop(owns (c : Thread nD τ) scM1 fullShare (accAt1 V c t.val t.isLt)
      ∗ (∀ d, owns (c : Thread nD τ) scM1 fullShare d -∗ Pipeline.ΦA spec1 c)) from rfl,
    after1_0, after1_1, after1_2, PhiS1_castSucc]
  by_cases h0 : t.val % 4 = 0
  · rw [accAt1_reset V c t h0]
    by_cases hz : t.val = 0
    · rw [PhiS1_zero V c _ _ hz]
      iintro ⟨HΦ, Ho, ⟨%d0, H0⟩, ⟨%d1, H1⟩, ⟨%d2, H2⟩⟩
      ihave HΦ' := (PhiA1_open c) $$ HΦ
      icases HΦ' with ⟨HS, Hw⟩
      iapply (sound_kernel1_reset c Set.univ _ ((hcond1 t).mpr h0) _ _ _ _ _ _ _ _ (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS Hw]
      · isplitl [HS]; · iexact HS
        iexact Hw
      isplitl [Ho]; · iexact Ho
      isplitl [H0]; · iexact H0
      isplitl [H1]; · iexact H1
      iexact H2
    · rw [PhiS1_pos V c _ _ hz]
      iintro ⟨⟨HS, Hw⟩, Ho, ⟨%d0, H0⟩, ⟨%d1, H1⟩, ⟨%d2, H2⟩⟩
      iapply (sound_kernel1_reset c Set.univ _ ((hcond1 t).mpr h0) _ _ _ _ _ _ _ _ (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS Hw]
      · isplitl [HS]; · iexact HS
        iexact Hw
      isplitl [Ho]; · iexact Ho
      isplitl [H0]; · iexact H0
      isplitl [H1]; · iexact H1
      iexact H2
  · rw [accAt1_step V c t h0]
    have hz : t.val ≠ 0 := fun h => h0 (by rw [h])
    rw [PhiS1_pos V c _ _ hz]
    iintro ⟨⟨HS, Hw⟩, Ho, ⟨%d0, H0⟩, ⟨%d1, H1⟩, ⟨%d2, H2⟩⟩
    iapply (sound_kernel1_step c Set.univ _ (fun h => h0 ((hcond1 t).mp h)) _ _ _ _ _ _ _ _ (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 :=
  Idealize.SL.BI.Entails.refl _

/-- After the last point the invariant gives the class's back: the accumulator's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl,
    PhiS1_pos V c _ _ hN]
  iintro ⟨HS, Hw⟩
  ispecialize Hw $$ %_ HS
  iexact Hw

end Cert.KernelIdeal.Fr

end
-- ==== Proof.FrameR2.lean ====
import proofs.«118667_j67336497267250_1_alg».proof.Proof.Gen.KernelIdeal.Launch
import proofs.«118667_j67336497267250_1_alg».proof.Proof.Gen.KernelIdeal.Skeleton
import proofs.«118667_j67336497267250_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The output kernel (the third pallas_call), at any entry contents `V`

One grid point (b, lt) reads a [16, 512, 64] block of q and of u, the [16, 64, 64] state of batch b and the transposed
output weights, and writes a [512, 1024] slab of the result: q times the state per head, each row divided by the
larger of its scaled norm and a floor, gated by u, the heads merged back into rows of 1024 features, times Woᵀ.
-/

variable (V : (c : Dev nD) → (b : Ref sig .tc) → Buf (Elt F) ((c : Thread nD τ).loc b))

/-- Window `w`'s block at grid point `t`, read off its array at the region's entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's staging buffer holds its block at every point: a block that is not fetched again has
not moved (the state's block index changes only with b, the weights' never). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The body's access rectangles: each a whole staging buffer. -/
abbrev rQ2 : Rect S1x16x512x64 := Rect.unit (s := S1x16x512x64) ![0, 0, 0, 0] S1x16x512x64.size inb_S1x16x512x64_S1x16x512x64_0_0_0_0
abbrev rS2 : Rect S1x16x64x64 := Rect.unit (s := S1x16x64x64) ![0, 0, 0, 0] S1x16x64x64.size inb_S1x16x64x64_S1x16x64x64_0_0_0_0
abbrev rW2 : Rect S1024x1024 := Rect.unit (s := S1024x1024) ![0, 0] S1024x1024.size inb_S1024x1024_S1024x1024_0_0
abbrev rO2 : Rect S1x512x1024 := Rect.unit (s := S1x512x1024) ![0, 0, 0] S1x512x1024.size inb_S1x512x1024_S1x512x1024_0_0_0

/-- The result slab, from the q block, the u block, the state and the weights. -/
def out2_4 (x0 x1 : Vec F S1x16x512x64 .f32) (x2 : Vec F S1x16x64x64 .f32) (x3 : Vec F S1024x1024 .bf16) : Vec F S1x512x1024 .f32 :=
  View.canon [⟨rO2, k2_pay1 (View.ld x0 rQ2) (View.ld x1 rQ2) (View.ld x2 rS2) (View.ld x3 rW2)⟩]

/-- One whole-block store covers the block. -/
theorem cover2_O (p0 : Vec F S1x512x1024 .f32) (y : S1x512x1024.Idx) :
    ∃ pc ∈ ([⟨rO2, p0⟩] : List (View.Piece (Elt F) S1x512x1024 .f32)), y ∈ pc.1.set :=
  View.cover_of_tiled [⟨rO2, p0⟩] S1x512x1024.size (by rfl) y

set_option maxHeartbeats 4000000 in
/-- The body on whole staging memrefs: the inputs' at contents `x0 … x3`, the output's at anything; it ends with the
    inputs' as they were and the output's at its slab. -/
theorem sound_kernel2 (c : Dev nD) (E : Set ℕ) (i : grid2.Coords)
    (arg2 : Memref sig .tc .vmem S1x16x512x64 .f32) (harg2 : arg2.IsWhole)
    (arg3 : Memref sig .tc .vmem S1x16x512x64 .f32) (harg3 : arg3.IsWhole)
    (arg4 : Memref sig .tc .vmem S1x16x64x64 .f32) (harg4 : arg4.IsWhole)
    (arg5 : Memref sig .tc .vmem S1024x1024 .bf16) (harg5 : arg5.IsWhole)
    (arg6 : Memref sig .tc .vmem S1x512x1024 .f32) (harg6 : arg6.IsWhole)
    (x0 x1 : Vec F S1x16x512x64 .f32) (x2 : Vec F S1x16x64x64 .f32) (x3 : Vec F S1024x1024 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out2_4 x0 x1 x2 x3)) -∗ K ⟨⟩))
      ⊢ wp frame (wpE (defs₀ (F := F)) Variants.none c none) E
          (cc2__out_kernel i arg2 harg2 arg3 harg3 arg4 harg4 arg5 harg5 arg6 harg6) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_O _)

/-- The proof data of the third pipeline on core `c`: the arrays as the region finds them; after the body the inputs'
    buffers at their blocks and the output's at its slab; nothing carried between points. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 4000000 in
/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.ValCommon.lean ====
import proofs.«118667_j67336497267250_1_alg».proof.Proof.Gen.KernelIdeal.Launch
import proofs.«118667_j67336497267250_1_alg».proof.Proof.Gen.ReferenceIdeal
import Idealize.ShloMosaic.PureOps.Ideal

noncomputable section

namespace Cert.KernelIdeal.Fr

open Cert.KernelIdeal Cert.KernelIdeal.Gen
open Idealize.ShloMosaic Idealize.ShloMosaic.TcCoe

/-- The activations x as the reference names them: a [4, 4096, 1024] array of extended reals. -/
abbrev RX : Type := (⟨Cert.ReferenceIdeal.S4x4096x1024, .f32⟩ : BufTy).Contents (Elt Ideal)
/-- A weight matrix as the reference names it: [1024 outputs, 1024 inputs]. -/
abbrev RW : Type := (⟨Cert.ReferenceIdeal.S1024x1024, .f32⟩ : BufTy).Contents (Elt Ideal)

/-- A weight matrix as the kernels receive it: transposed, then narrowed (the narrowing is the identity on extended reals). -/
def wT {F : FTy → Type} [FloatOps F] (W : (⟨S1024x1024, .f32⟩ : BufTy).Contents (Elt F)) : (⟨S1024x1024, .bf16⟩ : BufTy).Contents (Elt F) :=
  truncf .bf16 (transpose S1024x1024 [1, 0] W transposes_S1024x1024_S1024x1024_1_0) bitsLt_bf16_f32

end Cert.KernelIdeal.Fr

end
-- ==== Proof.FrameRun.lean ====
import proofs.«118667_j67336497267250_1_alg».proof.Proof.Gen.KernelIdeal.Launch
import proofs.«118667_j67336497267250_1_alg».proof.Proof.Gen.KernelIdeal.Skeleton
import proofs.«118667_j67336497267250_1_alg».proof.Proof.Gen.KernelIdeal.Points
import proofs.«118667_j67336497267250_1_alg».proof.Proof.FrameR0
import proofs.«118667_j67336497267250_1_alg».proof.Proof.FrameR1
import proofs.«118667_j67336497267250_1_alg».proof.Proof.FrameR2
import proofs.«118667_j67336497267250_1_alg».proof.Proof.ValCommon
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
# The run of the whole program: ten host operations, then the three kernels

The buffers' contents at each boundary are a fold from the launch memory: the host operations' results, then each
kernel's arrays at what its write-backs leave and every other buffer as the kernel found it.
-/

/-- Core `c`'s buffers at launch. -/
abbrev W0 : Dev nD → Valuation τ sig (Elt F) := fun c b => (s₀ m ρ).mem ((c : Dev nD), b)
/-- After the host operations (the first kernel's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At the first kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At the third kernel's exit: the program's end. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ### The arguments end as launched: no host operation writes one, and no kernel does (the first reads x through an
    input window; the weights are read by the host operations only) -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.Forall, StableHlo.unary_writes, Finset.mem_singleton]
          repeat' apply And.intro
          all_goals exact StableHlo.devRef_ne_of_ne (by decide)))).trans rfl

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_main_arg0 m ρ c

theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.Forall, StableHlo.unary_writes, Finset.mem_singleton]
          repeat' apply And.intro
          all_goals exact StableHlo.devRef_ne_of_ne (by decide)))).trans rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = m ((c : Thread nD τ).loc main_arg1) := W1_main_arg1 m ρ c

theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.Forall, StableHlo.unary_writes, Finset.mem_singleton]
          repeat' apply And.intro
          all_goals exact StableHlo.devRef_ne_of_ne (by decide)))).trans rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = m ((c : Thread nD τ).loc main_arg2) := W1_main_arg2 m ρ c

theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.Forall, StableHlo.unary_writes, Finset.mem_singleton]
          repeat' apply And.intro
          all_goals exact StableHlo.devRef_ne_of_ne (by decide)))).trans rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = m ((c : Thread nD τ).loc main_arg3) := W1_main_arg3 m ρ c

theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.Forall, StableHlo.unary_writes, Finset.mem_singleton]
          repeat' apply And.intro
          all_goals exact StableHlo.devRef_ne_of_ne (by decide)))).trans rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = m ((c : Thread nD τ).loc main_arg4) := W1_main_arg4 m ρ c

theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.Forall, StableHlo.unary_writes, Finset.mem_singleton]
          repeat' apply And.intro
          all_goals exact StableHlo.devRef_ne_of_ne (by decide)))).trans rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = m ((c : Thread nD τ).loc main_arg5) := W1_main_arg5 m ρ c

/-! ## The proof data family and the thread state -/

/-- No pipeline has a prefetched table. -/
abbrev adm : (p : Fin 3) → (pcfgs (F := F) p).Adm := fun p => (cfgs p).toPCfg_adm
/-- Every pipeline's proof data, each at its kernel's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The kernels as segments -/

set_option backward.isDefEq.respectTransparency.types false in
/-- Kernel 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 over the thread state: entered from every unscoped buffer at `W2`, left at `W3`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    refine BIBase.Entails.trans (hout1 (V2 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 2 over the thread state: entered from every unscoped buffer at `W3`, left at `W4`. Its arrays are split
    out of the unscoped buffers and put back at the exit contents; the generator register goes into the invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: the host operations from the launch contents, then the three kernels. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- The program is the run of its segments. -/
theorem main_run (c : Dev nD) : main (F := F) c = Pipeline.Seg.run (segs m ρ) := (main_chain c).trans (by chain_rfl)

set_option backward.isDefEq.respectTransparency.types false in
/-- THE RUN: from any memory with zero counters, every weakly fair execution of the program on the TensorCores terminates,
    nothing faulting, and in every final state each unscoped buffer of each core holds the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array at the end: what the third kernel's write-backs leave in it. -/
theorem W4_main_v12 (c : Dev nD) : W4 m ρ c (Proc.devRef .tc main_v12) = (dat2 (V3 m ρ) c).arrAt 4 cfg2.N :=
  W4_arr m ρ c 4

/-- The frame: the program runs, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-- The run with the result: the result array ends at what the third kernel's write-backs leave, every argument as
    launched. -/
theorem run_value : θ_run defs (onTc (τ := τ) (main (F := F))) ⟨m, fun _ => 0, ρ⟩ (fun r => ∀ c : Dev nD,
      r.2.mem ((c.tc : Thread nD τ).loc main_v12) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v12 (by decide))).trans (W4_main_v12 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

/-! ## What each kernel finds in its input arrays -/

/-- The first kernel reads x as launched, -/
theorem V1_main_arg0 (c : Dev nD) : V1 m ρ c main_arg0 = m ((c : Thread nD τ).loc main_arg0) := W1_main_arg0 m ρ c
/-- and each weight matrix transposed and narrowed by the host operations. -/
theorem V1_main_v1 (c : Dev nD) : V1 m ρ c main_v1 = wT (m ((c : Thread nD τ).loc main_arg1)) := by
  show StableHlo.after hostOps0 _ (Proc.devRef .tc main_v1) = _
  after_results
  rfl
theorem V1_main_v3 (c : Dev nD) : V1 m ρ c main_v3 = wT (m ((c : Thread nD τ).loc main_arg2)) := by
  show StableHlo.after hostOps0 _ (Proc.devRef .tc main_v3) = _
  after_results
  rfl
theorem V1_main_v5 (c : Dev nD) : V1 m ρ c main_v5 = wT (m ((c : Thread nD τ).loc main_arg3)) := by
  show StableHlo.after hostOps0 _ (Proc.devRef .tc main_v5) = _
  after_results
  rfl
theorem V1_main_v7 (c : Dev nD) : V1 m ρ c main_v7 = wT (m ((c : Thread nD τ).loc main_arg4)) := by
  show StableHlo.after hostOps0 _ (Proc.devRef .tc main_v7) = _
  after_results
  rfl
theorem V1_main_v9 (c : Dev nD) : V1 m ρ c main_v9 = wT (m ((c : Thread nD τ).loc main_arg5)) := by
  show StableHlo.after hostOps0 _ (Proc.devRef .tc main_v9) = _
  after_results
  rfl

/-- The second kernel reads k and v as the first left them. -/
theorem V2_main_v10_1 (c : Dev nD) : V2 m ρ c main_v10_1 = (dat0 (V1 m ρ) c).arrAt 6 cfg0.N := W2_arr m ρ c 6
theorem V2_main_v10_2 (c : Dev nD) : V2 m ρ c main_v10_2 = (dat0 (V1 m ρ) c).arrAt 7 cfg0.N := W2_arr m ρ c 7

/-- The third kernel reads q and u as the first left them, the state as the second left it, and the output weights
    transposed and narrowed by the host operations. -/
theorem V3_main_v10_0 (c : Dev nD) : V3 m ρ c main_v10_0 = (dat0 (V1 m ρ) c).arrAt 5 cfg0.N :=
  (W3_of_ne m ρ c main_v10_0 (by decide)).trans (W2_arr m ρ c 5)
theorem V3_main_v10_3 (c : Dev nD) : V3 m ρ c main_v10_3 = (dat0 (V1 m ρ) c).arrAt 8 cfg0.N :=
  (W3_of_ne m ρ c main_v10_3 (by decide)).trans (W2_arr m ρ c 8)
theorem V3_main_v11 (c : Dev nD) : V3 m ρ c main_v11 = (dat1 (V2 m ρ) c).arrAt 2 cfg1.N := W3_arr m ρ c 2
theorem V3_main_v9 (c : Dev nD) : V3 m ρ c main_v9 = wT (m ((c : Thread nD τ).loc main_arg5)) :=
  ((W3_of_ne m ρ c main_v9 (by decide)).trans (W2_of_ne m ρ c main_v9 (by decide))).trans (V1_main_v9 m ρ c)

end Cert.KernelIdeal.Fr

end
-- ==== Proof.ValLemmas.lean ====
import proofs.«118667_j67336497267250_1_alg».proof.Proof.ValCommon
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe

/-- The transposed, narrowed weights at (k, e) are the weights at (e, k): at the extended reals the narrowing is
    the identity. -/
theorem wT_apply (W : (⟨S1024x1024, .f32⟩ : BufTy).Contents (Elt Ideal)) (k e : Fin 1024) :
    wT (F := Ideal) W (ValueIdx.ix2 k e) = W (ValueIdx.ix2 e k) := by
  unfold wT
  rw [ValueIdx.truncf_apply]
  exact transpose_apply [1, 0] W transposes_S1024x1024_S1024x1024_1_0 (ValueIdx.ix2 k e) (ValueIdx.ix2 e k) (fun b => match b with
    | ⟨0, _⟩ => rfl
    | ⟨1, _⟩ => rfl)

end Cert.KernelIdeal.Fr

end
-- ==== Proof.ValR0qk.lean ====
import proofs.«118667_j67336497267250_1_alg».proof.Proof.FrameR0
import proofs.«118667_j67336497267250_1_alg».proof.Proof.ValCommon
import proofs.«118667_j67336497267250_1_alg».proof.Proof.ValLemmas
import proofs.«118667_j67336497267250_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0qk

open Cert.KernelIdeal Cert.KernelIdeal.Gen Cert.KernelIdeal.Fr
open Idealize.ShloMosaic Idealize.ShloMosaic.TcCoe
open Idealize.SL Idealize.SL.Sem
open Idealize.ShloMosaic.Pipeline (Dat Cfg Window)
open Idealize.ShloMosaic.ValueIdx (ix2 ix3 ix4 eq_ix2 eq_ix3 eq_ix4)

variable (V : (c : Dev nD) → (b : Ref sig .tc) → Buf (Elt Ideal) ((c : Thread nD τ).loc b))

/-!
# What the projection kernel leaves in its four output arrays, at the extended reals

Entered with x and a transposed weight matrix in its input arrays, the first pallas_call ends with q, k, v, u exactly
as the reference computes them from x and the untransposed weights.
-/

/-! ## The slab times a weight matrix, read at an entry -/

theorem lhs_mm_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_mm_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_mm_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_mm_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry (r, e) of a [256, 1024] matrix times a [1024, 1024] matrix, summed into zero: the sum over the shared axis. -/
theorem mm_apply (a : FVec Ideal S256x1024 .bf16) (w : FVec Ideal S1024x1024 .bf16) (r : Fin 256) (e : Fin 1024) :
    matmul dot_S256x1024_S1024x1024_S256x1024_1_0_0_1_n_n none a w (constant (F := Ideal) S256x1024 .f32 0x00000000#32) (ix2 r e)
      = ∑ k : Fin 1024, a (ix2 r k) * w (ix2 k e) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 r e) ((ValueIdx.contrEquiv1 dot_S256x1024_S1024x1024_S256x1024_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S256x1024_S1024x1024_S256x1024_1_0_0_1_n_n.rhsIdx (ix2 r e) ((ValueIdx.contrEquiv1 dot_S256x1024_S1024x1024_S256x1024_1_0_0_1_n_n 1024 rfl rfl).symm k) = ix2 k e := funext fun a => Fin.ext (by
    match a with
    | ⟨0, _⟩ => exact (rhs_mm_0 _ _).trans hk
    | ⟨1, _⟩ => exact rhs_mm_1 _ _)
  rw [el, er]

/-! ## The literals the two sides scale by -/

/-- The word the kernel multiplies by denotes 1/8. -/
theorem ofBits_eighth : Ideal.ofBits .f32 0x3E000000#32 = (((1 / 8 : ℝ)) : EReal) := by
  simp [Ideal.ofBits, Ideal.ieee, -EReal.coe_mul]; norm_num

/-- The word the reference divides by denotes 8. -/
theorem ofBits_eight : Ideal.ofBits .f32 0x41000000#32 = ((8 : ℝ) : EReal) := by
  simp [Ideal.ofBits, Ideal.ieee, -EReal.coe_mul]; norm_num

/-- Multiplying by 1/8 is dividing by 8, for every extended real. -/
theorem scale_law (p : EReal) :
    p * Ideal.ofBits .f32 0x3E000000#32 = Ideal.div p (Ideal.ofBits .f32 0x41000000#32) := by
  rw [ofBits_eighth, ofBits_eight, Ideal.div_coe (by norm_num)]

/-! ## The body's arithmetic, read at an entry -/

/-- Feature e = 64 h + d of a row of 1024 features. -/
abbrev col (h : Fin 16) (d : Fin 64) : Fin 1024 := ⟨64 * h.val + d.val, by omega⟩

/-- The slab [1, 256, 1024] viewed as [256, 1024] (and narrowed, which changes nothing): entry (r, k) is the slab's (0, r, k). -/
theorem pay4_apply (x0 : Vec Ideal S1x256x1024 .f32) (r : Fin 256) (k : Fin 1024) :
    k0_pay4 x0 (ix2 r k) = x0 (ix3 (0 : Fin 1) r k) := by
  unfold k0_pay4
  exact ValueIdx.shapeCast_1ab_ab_apply x0 shapeCasts_S1x256x1024_S256x1024 r k

/-- The head split: a [256, 1024] matrix regrouped as [256, 16, 64] with the head axis moved to the front reads, at
    (h, r, d), the matrix at (r, 64 h + d). -/
theorem split_apply (y : FVec Ideal S256x1024 .f32) (h : Fin 16) (r : Fin 256) (d : Fin 64) :
    transpose S16x256x64 [1, 0, 2] (shapeCast S256x16x64 y shapeCasts_S256x1024_S256x16x64) transposes_S256x16x64_p1_0_2_S16x256x64 (ix3 h r d)
      = y (ix2 r (col h d)) := by
  refine (transpose_apply [1, 0, 2] _ transposes_S256x16x64_p1_0_2_S16x256x64 (ix3 h r d) (ix3 r h d) (fun b => match b with
    | ⟨0, _⟩ => rfl
    | ⟨1, _⟩ => rfl
    | ⟨2, _⟩ => rfl)).trans ?_
  exact shapeCast_apply y shapeCasts_S256x1024_S256x16x64 (ix3 r h d) (ix2 r (col h d)) (by
    rw [Shape.rowMajor_val_two, Shape.rowMajor_val_three]
    show r.val * 1024 + (64 * h.val + d.val) = (r.val * 16 + h.val) * 64 + d.val
    omega)

/-- The relu and the scale by 1/8 of one product entry. -/
def act (p : EReal) : EReal := max p (Ideal.ofBits .f32 0x00000000#32) * Ideal.ofBits .f32 0x3E000000#32

/-- The k payload before its last reshape, at (h, r, d): the activation of row r of the slab against column 64 h + d of
    the weight matrix. -/
theorem pay8_apply (x0 : Vec Ideal S1x256x1024 .f32) (w : Vec Ideal S1024x1024 .bf16) (h : Fin 16) (r : Fin 256) (d : Fin 64) :
    k0_pay8 x0 w (ix3 h r d) = act (∑ k : Fin 1024, x0 (ix3 (0 : Fin 1) r k) * w (ix2 k (col h d))) := by
  unfold k0_pay8
  refine (split_apply _ h r d).trans ?_
  unfold act
  refine congrArg (fun p : EReal => max p (Ideal.ofBits .f32 0x00000000#32) * Ideal.ofBits .f32 0x3E000000#32) ?_
  rw [shapeCast_self]
  refine (mm_apply _ _ r (col h d)).trans ?_
  exact Finset.sum_congr rfl fun k _ => by rw [pay4_apply]

/-- The last reshape [16, 256, 64] → [1, 16, 256, 64]. -/
theorem pay1_apply (v : FVec Ideal S16x256x64 .f32) (u : Fin 1) (h : Fin 16) (r : Fin 256) (d : Fin 64) :
    k0_pay1 v (ix4 u h r d) = v (ix3 h r d) := by
  unfold k0_pay1
  exact ValueIdx.shapeCast_abc_1abc_apply v shapeCasts_S16x256x64_S1x16x256x64 u h r d

/-- The q payload at (0, h, r, d): the same. -/
theorem pay7_apply (x0 : Vec Ideal S1x256x1024 .f32) (w : Vec Ideal S1024x1024 .bf16) (u : Fin 1) (h : Fin 16) (r : Fin 256) (d : Fin 64) :
    k0_pay7 x0 w (ix4 u h r d) = act (∑ k : Fin 1024, x0 (ix3 (0 : Fin 1) r k) * w (ix2 k (col h d))) := by
  unfold k0_pay7
  refine (ValueIdx.shapeCast_abc_1abc_apply _ shapeCasts_S16x256x64_S1x16x256x64 u h r d).trans ?_
  refine (split_apply _ h r d).trans ?_
  unfold act
  refine congrArg (fun p : EReal => max p (Ideal.ofBits .f32 0x00000000#32) * Ideal.ofBits .f32 0x3E000000#32) ?_
  rw [shapeCast_self]
  refine (mm_apply _ _ r (col h d)).trans ?_
  exact Finset.sum_congr rfl fun k _ => by rw [pay4_apply]

/-! ## The reference's q and k, read at an entry -/

/-- The reference's q at (b, h, l, d): relu of row (b, l) of x against row 64 h + d of the weights, divided by 8. -/
theorem ref_q_apply (x0 : RX) (x1 : RW) (b : Fin 4) (h : Fin 16) (l : Fin 4096) (d : Fin 64) :
    Cert.ReferenceIdeal.Read.val_main_v5 (F := Ideal) x0 x1 (ix4 b h l d)
      = Ideal.div (max (∑ k : Fin 1024, x0 (ix3 b l k) * x1 (ix2 (col h d) k)) (Ideal.ofBits .f32 0x00000000#32)) (Ideal.ofBits .f32 0x41000000#32) := by
  rw [Cert.ReferenceIdeal.Read.val_main_v5_apply, Cert.ReferenceIdeal.Read.val_main_v3_apply, Cert.ReferenceIdeal.Read.val_main_v4_apply,
    Cert.ReferenceIdeal.Read.val_main_cst_apply, Cert.ReferenceIdeal.Read.val_main_call0_v0_apply, Cert.ReferenceIdeal.Read.val_main_call0_cst_apply,
    Cert.ReferenceIdeal.Read.val_main_v2_apply, Cert.ReferenceIdeal.Read.val_main_v1_apply, Cert.ReferenceIdeal.Read.val_main_v0_apply]
  have hb : b.val < 4 := b.isLt
  have hh : h.val < 16 := h.isLt
  have hl : l.val < 4096 := l.isLt
  have hd : d.val < 64 := d.isLt
  have el : ∀ k : Fin 1024, Cert.ReferenceIdeal.Read.lidx_main_v0 (Cert.ReferenceIdeal.Read.idx_main_v1 (Cert.ReferenceIdeal.Read.idx_main_v2 (ix4 b h l d))) k = ix3 b l k := fun k =>
    funext fun a => Fin.ext (by
      match a with
      | ⟨0, _⟩ => show (((b.val * 4096 + l.val) * 16 + h.val) * 64 + d.val) / 4194304 = b.val; omega
      | ⟨1, _⟩ => show (((b.val * 4096 + l.val) * 16 + h.val) * 64 + d.val) / 1024 % 4096 = l.val; omega
      | ⟨2, _⟩ => rfl)
  have er : ∀ k : Fin 1024, Cert.ReferenceIdeal.Read.ridx_main_v0 (Cert.ReferenceIdeal.Read.idx_main_v1 (Cert.ReferenceIdeal.Read.idx_main_v2 (ix4 b h l d))) k = ix2 (col h d) k := fun k =>
    funext fun a => Fin.ext (by
      match a with
      | ⟨0, _⟩ => show (((b.val * 4096 + l.val) * 16 + h.val) * 64 + d.val) % 1024 = 64 * h.val + d.val; omega
      | ⟨1, _⟩ => rfl)
  simp only [el, er, Ideal.hostDivf_def, Ideal.maximumf_def, Ideal.ofBits_def]

/-- The reference's k: the same with the k weights. -/
theorem ref_k_apply (x0 : RX) (x2 : RW) (b : Fin 4) (h : Fin 16) (l : Fin 4096) (d : Fin 64) :
    Cert.ReferenceIdeal.Read.val_main_v11 (F := Ideal) x0 x2 (ix4 b h l d)
      = Ideal.div (max (∑ k : Fin 1024, x0 (ix3 b l k) * x2 (ix2 (col h d) k)) (Ideal.ofBits .f32 0x00000000#32)) (Ideal.ofBits .f32 0x41000000#32) := by
  rw [Cert.ReferenceIdeal.Read.val_main_v11_apply, Cert.ReferenceIdeal.Read.val_main_v9_apply, Cert.ReferenceIdeal.Read.val_main_v10_apply,
    Cert.ReferenceIdeal.Read.val_main_cst_0_apply, Cert.ReferenceIdeal.Read.val_main_call1_v0_apply, Cert.ReferenceIdeal.Read.val_main_call1_cst_apply,
    Cert.ReferenceIdeal.Read.val_main_v8_apply, Cert.ReferenceIdeal.Read.val_main_v7_apply, Cert.ReferenceIdeal.Read.val_main_v6_apply]
  have hb : b.val < 4 := b.isLt
  have hh : h.val < 16 := h.isLt
  have hl : l.val < 4096 := l.isLt
  have hd : d.val < 64 := d.isLt
  have el : ∀ k : Fin 1024, Cert.ReferenceIdeal.Read.lidx_main_v6 (Cert.ReferenceIdeal.Read.idx_main_v7 (Cert.ReferenceIdeal.Read.idx_main_v8 (ix4 b h l d))) k = ix3 b l k := fun k =>
    funext fun a => Fin.ext (by
      match a with
      | ⟨0, _⟩ => show (((b.val * 4096 + l.val) * 16 + h.val) * 64 + d.val) / 4194304 = b.val; omega
      | ⟨1, _⟩ => show (((b.val * 4096 + l.val) * 16 + h.val) * 64 + d.val) / 1024 % 4096 = l.val; omega
      | ⟨2, _⟩ => rfl)
  have er : ∀ k : Fin 1024, Cert.ReferenceIdeal.Read.ridx_main_v6 (Cert.ReferenceIdeal.Read.idx_main_v7 (Cert.ReferenceIdeal.Read.idx_main_v8 (ix4 b h l d))) k = ix2 (col h d) k := fun k =>
    funext fun a => Fin.ext (by
      match a with
      | ⟨0, _⟩ => show (((b.val * 4096 + l.val) * 16 + h.val) * 64 + d.val) % 1024 = 64 * h.val + d.val; omega
      | ⟨1, _⟩ => rfl)
  simp only [el, er, Ideal.hostDivf_def, Ideal.maximumf_def, Ideal.ofBits_def]

/-- The kernel's activation of a product entry is the reference's. -/
theorem act_eq (p : EReal) :
    act p = Ideal.div (max p (Ideal.ofBits .f32 0x00000000#32)) (Ideal.ofBits .f32 0x41000000#32) := by
  unfold act; exact scale_law _

/-! ## From blocks to the arrays -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The index maps over the grid: point t = 16 b + j takes slab j of batch b of x, the whole of each weight matrix,
    and writes block (b, 0, j, 0) of q and of k. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_5.index t (0 : Fin 4) = t.val / 16 ∧ win0_5.index t (1 : Fin 4) = 0 ∧ win0_5.index t (2 : Fin 4) = t.val % 16 ∧ win0_5.index t (3 : Fin 4) = 0
    ∧ win0_6.index t (0 : Fin 4) = t.val / 16 ∧ win0_6.index t (1 : Fin 4) = 0 ∧ win0_6.index t (2 : Fin 4) = t.val % 16 ∧ win0_6.index t (3 : Fin 4) = 0 :=
  (by decide +kernel : ∀ t : Fin grid0.N, _)

/-- The batch a point works on, -/
abbrev bOf (t : Fin cfg0.N) : Fin 4 := ⟨t.val / 16, by have h := t.isLt; have hN : cfg0.N = 64 := N_0; omega⟩
/-- and the row of x under row r of its slab. -/
abbrev rowOf (t : Fin cfg0.N) (r : Fin 256) : Fin 4096 := ⟨256 * (t.val % 16) + r.val, by omega⟩

/-- The slab of x a point loads, entry by entry. -/
theorem xblk_apply (c : Dev nD) (x0 : RX) (hx : V c main_arg0 = x0) (t : Fin cfg0.N) (r : Fin 256) (k : Fin 1024) :
    iblk0 V c 0 t (ix3 (0 : Fin 1) r k) = x0 (ix3 (bOf t) (rowOf t r) k) := by
  subst hx
  obtain ⟨e0, e1, e2, -⟩ := idx_facts t
  unfold iblk0
  rw [View.read_apply]
  show V c main_arg0 (((cfg0.win 0).blk t).view.emb (ix3 (0 : Fin 1) r k)) = V c main_arg0 _
  refine congrArg (V c main_arg0) (funext fun a => Fin.ext ?_)
  match a with
  | ⟨0, _⟩ => show win0_0.index t (0 : Fin 3) * 1 + 1 * 0 = t.val / 16; rw [e0]; omega
  | ⟨1, _⟩ => show win0_0.index t (1 : Fin 3) * 256 + 1 * r.val = 256 * (t.val % 16) + r.val; rw [e1]; omega
  | ⟨2, _⟩ => show win0_0.index t (2 : Fin 3) * 1024 + 1 * k.val = k.val; rw [e2]; omega

/-- The q weights a point loads: the whole transposed matrix. -/
theorem wblk1_apply (c : Dev nD) (x1 : RW) (hw : V c main_v1 = wT x1) (t : Fin cfg0.N) (k e : Fin 1024) :
    iblk0 V c 1 t (ix2 k e) = x1 (ix2 e k) := by
  obtain ⟨-, -, -, e0, e1, -⟩ := idx_facts t
  unfold iblk0
  rw [View.read_apply]
  show V c main_v1 (((cfg0.win 1).blk t).view.emb (ix2 k e)) = _
  rw [hw]
  refine Eq.trans (congrArg (wT (F := Ideal) x1) (funext fun a => Fin.ext ?_)) (wT_apply x1 k e)
  match a with
  | ⟨0, _⟩ => show win0_1.index t (0 : Fin 2) * 1024 + 1 * k.val = k.val; rw [e0]; omega
  | ⟨1, _⟩ => show win0_1.index t (1 : Fin 2) * 1024 + 1 * e.val = e.val; rw [e1]; omega

/-- The k weights likewise. -/
theorem wblk2_apply (c : Dev nD) (x2 : RW) (hw : V c main_v3 = wT x2) (t : Fin cfg0.N) (k e : Fin 1024) :
    iblk0 V c 2 t (ix2 k e) = x2 (ix2 e k) := by
  obtain ⟨-, -, -, -, -, e0, e1, -⟩ := idx_facts t
  unfold iblk0
  rw [View.read_apply]
  show V c main_v3 (((cfg0.win 2).blk t).view.emb (ix2 k e)) = _
  rw [hw]
  refine Eq.trans (congrArg (wT (F := Ideal) x2) (funext fun a => Fin.ext ?_)) (wT_apply x2 k e)
  match a with
  | ⟨0, _⟩ => show win0_2.index t (0 : Fin 2) * 1024 + 1 * k.val = k.val; rw [e0]; omega
  | ⟨1, _⟩ => show win0_2.index t (1 : Fin 2) * 1024 + 1 * e.val = e.val; rw [e1]; omega

/-- The q block a point writes, read off a whole [4, 16, 4096, 64] array. -/
theorem oblk5_apply (G : S4x16x4096x64.Idx → EReal) (t : Fin cfg0.N) (u : Fin 1) (h : Fin 16) (r : Fin 256) (d : Fin 64) :
    ((cfg0.win 5).blk t).view.read (Elt Ideal) G (ix4 u h r d) = G (ix4 (bOf t) h (rowOf t r) d) := by
  obtain ⟨-, -, -, -, -, -, -, e0, e1, e2, e3, -⟩ := idx_facts t
  have hu : u.val = 0 := by omega
  rw [View.read_apply]
  show G (((cfg0.win 5).blk t).view.emb (ix4 u h r d)) = G _
  refine congrArg G (funext fun a => Fin.ext ?_)
  match a with
  | ⟨0, _⟩ => show win0_5.index t (0 : Fin 4) * 1 + 1 * u.val = t.val / 16; rw [e0]; omega
  | ⟨1, _⟩ => show win0_5.index t (1 : Fin 4) * 16 + 1 * h.val = h.val; rw [e1]; omega
  | ⟨2, _⟩ => show win0_5.index t (2 : Fin 4) * 256 + 1 * r.val = 256 * (t.val % 16) + r.val; rw [e2]; omega
  | ⟨3, _⟩ => show win0_5.index t (3 : Fin 4) * 64 + 1 * d.val = d.val; rw [e3]; omega

/-- The k block likewise. -/
theorem oblk6_apply (G : S4x16x4096x64.Idx → EReal) (t : Fin cfg0.N) (u : Fin 1) (h : Fin 16) (r : Fin 256) (d : Fin 64) :
    ((cfg0.win 6).blk t).view.read (Elt Ideal) G (ix4 u h r d) = G (ix4 (bOf t) h (rowOf t r) d) := by
  obtain ⟨-, -, -, -, -, -, -, -, -, -, -, e0, e1, e2, e3⟩ := idx_facts t
  have hu : u.val = 0 := by omega
  rw [View.read_apply]
  show G (((cfg0.win 6).blk t).view.emb (ix4 u h r d)) = G _
  refine congrArg G (funext fun a => Fin.ext ?_)
  match a with
  | ⟨0, _⟩ => show win0_6.index t (0 : Fin 4) * 1 + 1 * u.val = t.val / 16; rw [e0]; omega
  | ⟨1, _⟩ => show win0_6.index t (1 : Fin 4) * 16 + 1 * h.val = h.val; rw [e1]; omega
  | ⟨2, _⟩ => show win0_6.index t (2 : Fin 4) * 256 + 1 * r.val = 256 * (t.val % 16) + r.val; rw [e2]; omega
  | ⟨3, _⟩ => show win0_6.index t (3 : Fin 4) * 64 + 1 * d.val = d.val; rw [e3]; omega

/-- What a point writes back into q is its block of the reference's q. -/
theorem q_flushed (c : Dev nD) (x0 : RX) (x1 : RW) (hx : V c main_arg0 = x0) (hw : V c main_v1 = wT x1) (t : Fin cfg0.N) :
    (dat0 V c).flushed 5 t = ((cfg0.win 5).blk t).view.read (Elt Ideal) (Cert.ReferenceIdeal.Read.val_main_v5 (F := Ideal) x0 x1) := by
  show (cfg0.win 5).cut (grid0.coords t) ((dat0 V c).after 5 t) = _
  rw [after0_5]
  unfold out0_5
  rw [View.canon_unit_zero hz4]
  simp only [View.ld_unit_zero (S := S1x256x1024) hz3, View.ld_unit_zero (S := S1024x1024) hz2]
  funext y
  obtain ⟨u, h, r, d, rfl⟩ : ∃ (u : Fin 1) (h : Fin 16) (r : Fin 256) (d : Fin 64), y = ix4 u h r d := ⟨y 0, y 1, y 2, y 3, eq_ix4 y⟩
  refine Eq.trans ?_ (oblk5_apply _ t u h r d).symm
  rw [ref_q_apply, ← act_eq]
  show k0_pay7 (iblk0 V c 0 t) (iblk0 V c 1 t) (ix4 u h r d) = _
  refine (pay7_apply (iblk0 V c 0 t) (iblk0 V c 1 t) u h r d).trans ?_
  refine congrArg act (Finset.sum_congr rfl fun k _ => ?_)
  rw [xblk_apply V c x0 hx t r k, wblk1_apply V c x1 hw t k (col h d)]

/-- What a point writes back into k is its block of the reference's k. -/
theorem k_flushed (c : Dev nD) (x0 : RX) (x2 : RW) (hx : V c main_arg0 = x0) (hw : V c main_v3 = wT x2) (t : Fin cfg0.N) :
    (dat0 V c).flushed 6 t = ((cfg0.win 6).blk t).view.read (Elt Ideal) (Cert.ReferenceIdeal.Read.val_main_v11 (F := Ideal) x0 x2) := by
  show (cfg0.win 6).cut (grid0.coords t) ((dat0 V c).after 6 t) = _
  rw [after0_6]
  unfold out0_6
  rw [View.canon_unit_zero hz4]
  simp only [View.ld_unit_zero (S := S1x256x1024) hz3, View.ld_unit_zero (S := S1024x1024) hz2]
  funext y
  obtain ⟨u, h, r, d, rfl⟩ : ∃ (u : Fin 1) (h : Fin 16) (r : Fin 256) (d : Fin 64), y = ix4 u h r d := ⟨y 0, y 1, y 2, y 3, eq_ix4 y⟩
  refine Eq.trans ?_ (oblk6_apply _ t u h r d).symm
  rw [ref_k_apply, ← act_eq]
  show k0_pay1 (k0_pay8 (iblk0 V c 0 t) (iblk0 V c 2 t)) (ix4 u h r d) = _
  refine (pay1_apply _ u h r d).trans ?_
  refine (pay8_apply (iblk0 V c 0 t) (iblk0 V c 2 t) h r d).trans ?_
  refine congrArg act (Finset.sum_congr rfl fun k _ => ?_)
  rw [xblk_apply V c x0 hx t r k, wblk2_apply V c x2 hw t k (col h d)]

/-- An index of q is in a point's block iff each coordinate is in the block's range on its axis. -/
theorem mem_blk5 (t : Fin cfg0.N) (i : S4x16x4096x64.Idx) :
    i ∈ ((cfg0.win 5).blk t).view.set ↔ ∀ a : Fin 4, win0_5.index t a * S1x16x256x64.size a ≤ (i a).val ∧ (i a).val < win0_5.index t a * S1x16x256x64.size a + S1x16x256x64.size a := by
  show i ∈ ((View.whole main_v10_0).slice (win0_5.rect t)).set ↔ _
  rw [View.set_slice_whole, Rect.mem_set_unit]
  exact Iff.rfl

theorem mem_blk6 (t : Fin cfg0.N) (i : S4x16x4096x64.Idx) :
    i ∈ ((cfg0.win 6).blk t).view.set ↔ ∀ a : Fin 4, win0_6.index t a * S1x16x256x64.size a ≤ (i a).val ∧ (i a).val < win0_6.index t a * S1x16x256x64.size a + S1x16x256x64.size a := by
  show i ∈ ((View.whole main_v10_1).slice (win0_6.rect t)).set ↔ _
  rw [View.set_slice_whole, Rect.mem_set_unit]
  exact Iff.rfl

/-- Every entry (b, h, l, d) of q is written by point 16 b + l / 256. -/
theorem cover5 (i : S4x16x4096x64.Idx) : ∃ t : Fin cfg0.N, (cfg0.win 5).flush t = true ∧ i ∈ ((cfg0.win 5).blk t).view.set := by
  have hN : cfg0.N = 64 := N_0
  have h0 : (i 0).val < 4 := (i 0).isLt
  have h1 : (i 1).val < 16 := (i 1).isLt
  have h2 : (i 2).val < 4096 := (i 2).isLt
  have h3 : (i 3).val < 64 := (i 3).isLt
  obtain ⟨t, ht⟩ : ∃ t : Fin cfg0.N, t.val = 16 * (i 0).val + (i 2).val / 256 := ⟨⟨16 * (i 0).val + (i 2).val / 256, by omega⟩, rfl⟩
  obtain ⟨-, -, -, -, -, -, -, e0, e1, e2, e3, -⟩ := idx_facts t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; rw [e0]; omega
  | ⟨1, _⟩ => show win0_5.index t (1 : Fin 4) * 16 ≤ (i 1).val ∧ (i 1).val < win0_5.index t (1 : Fin 4) * 16 + 16; rw [e1]; omega
  | ⟨2, _⟩ => show win0_5.index t (2 : Fin 4) * 256 ≤ (i 2).val ∧ (i 2).val < win0_5.index t (2 : Fin 4) * 256 + 256; rw [e2]; omega
  | ⟨3, _⟩ => show win0_5.index t (3 : Fin 4) * 64 ≤ (i 3).val ∧ (i 3).val < win0_5.index t (3 : Fin 4) * 64 + 64; rw [e3]; omega

/-- Every entry of k likewise. -/
theorem cover6 (i : S4x16x4096x64.Idx) : ∃ t : Fin cfg0.N, (cfg0.win 6).flush t = true ∧ i ∈ ((cfg0.win 6).blk t).view.set := by
  have hN : cfg0.N = 64 := N_0
  have h0 : (i 0).val < 4 := (i 0).isLt
  have h1 : (i 1).val < 16 := (i 1).isLt
  have h2 : (i 2).val < 4096 := (i 2).isLt
  have h3 : (i 3).val < 64 := (i 3).isLt
  obtain ⟨t, ht⟩ : ∃ t : Fin cfg0.N, t.val = 16 * (i 0).val + (i 2).val / 256 := ⟨⟨16 * (i 0).val + (i 2).val / 256, by omega⟩, rfl⟩
  obtain ⟨-, -, -, -, -, -, -, -, -, -, -, e0, e1, e2, e3⟩ := idx_facts t
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; rw [e0]; omega
  | ⟨1, _⟩ => show win0_6.index t (1 : Fin 4) * 16 ≤ (i 1).val ∧ (i 1).val < win0_6.index t (1 : Fin 4) * 16 + 16; rw [e1]; omega
  | ⟨2, _⟩ => show win0_6.index t (2 : Fin 4) * 256 ≤ (i 2).val ∧ (i 2).val < win0_6.index t (2 : Fin 4) * 256 + 256; rw [e2]; omega
  | ⟨3, _⟩ => show win0_6.index t (3 : Fin 4) * 64 ≤ (i 3).val ∧ (i 3).val < win0_6.index t (3 : Fin 4) * 64 + 64; rw [e3]; omega

/-! ## The two arrays after the run -/

theorem q_final (c : Dev nD) (x0 : RX) (x1 : RW) (hx : V c main_arg0 = x0) (hw : V c main_v1 = wT x1) :
    (dat0 V c).arrAt 5 cfg0.N = Cert.ReferenceIdeal.Read.val_main_v5 (F := Ideal) x0 x1 := by
  exact (dat0 V c).arrAt_eq_of_cover 5 _ (fun t _ => q_flushed V c x0 x1 hx hw t) cover5

theorem k_final (c : Dev nD) (x0 : RX) (x2 : RW) (hx : V c main_arg0 = x0) (hw : V c main_v3 = wT x2) :
    (dat0 V c).arrAt 6 cfg0.N = Cert.ReferenceIdeal.Read.val_main_v11 (F := Ideal) x0 x2 := by
  exact (dat0 V c).arrAt_eq_of_cover 6 _ (fun t _ => k_flushed V c x0 x2 hx hw t) cover6

end Cert.KernelIdeal.Val0qk

end
-- ==== Proof.ValR0vu.lean ====
import proofs.«118667_j67336497267250_1_alg».proof.Proof.FrameR0
import proofs.«118667_j67336497267250_1_alg».proof.Proof.ValCommon
import proofs.«118667_j67336497267250_1_alg».proof.Proof.ValLemmas
import proofs.«118667_j67336497267250_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0vu

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-!
# What the projection kernel leaves in its four output arrays, at the extended reals

Entered with x and a transposed weight matrix in its input arrays, the projection kernel ends with q, k, v, u exactly
as the reference computes them from x and the untransposed weights.
-/

/-! ## The slab times a weight matrix, entry by entry

The product contracts the slab's feature axis with the weight matrix's first axis; the output's row comes from the
slab, its column from the weight matrix. -/

theorem lhs_row (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_contr (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_contr (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_col (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry (r, e) of a [256, 1024] by [1024, 1024] product into a zero accumulator: the sum over k of L(r, k) · R(k, e). -/
theorem product_apply (L : FVec Ideal S256x1024 .bf16) (R : FVec Ideal S1024x1024 .bf16) (r : Fin 256) (e : Fin 1024) :
    matmul dot_S256x1024_S1024x1024_S256x1024_1_0_0_1_n_n none L R (constant (F := Ideal) S256x1024 .f32 0x00000000#32) (ix2 r e)
      = ∑ k : Fin 1024, L (ix2 r k) * R (ix2 k e) := by
  refine (Ideal.matmul_constant_zero_apply dot_S256x1024_S1024x1024_S256x1024_1_0_0_1_n_n none L R (ix2 r e)).trans ?_
  rw [← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 r e) ((ValueIdx.contrEquiv1 dot_S256x1024_S1024x1024_S256x1024_1_0_0_1_n_n 1024 rfl rfl).symm k) = ix2 r k := funext fun a => Fin.ext (by
    match a with
    | ⟨0, _⟩ => exact lhs_row _ _
    | ⟨1, _⟩ => exact (lhs_contr _ _).trans hk)
  have er : dot_S256x1024_S1024x1024_S256x1024_1_0_0_1_n_n.rhsIdx (ix2 r e) ((ValueIdx.contrEquiv1 dot_S256x1024_S1024x1024_S256x1024_1_0_0_1_n_n 1024 rfl rfl).symm k) = ix2 k e := funext fun a => Fin.ext (by
    match a with
    | ⟨0, _⟩ => exact (rhs_contr _ _).trans hk
    | ⟨1, _⟩ => exact rhs_col _ _)
  rw [el, er]

/-- The slab [1, 256, 1024] viewed as [256, 1024] and narrowed, times the weights: entry (r, e) is Σ_k x(0, r, k) · w(k, e). -/
theorem slab_product_apply (x0 : Vec Ideal S1x256x1024 .f32) (w : Vec Ideal S1024x1024 .bf16) (r : Fin 256) (e : Fin 1024) :
    k0_pay5 (F := Ideal) x0 w (ix2 r e) = ∑ k : Fin 1024, x0 (ix3 (0 : Fin 1) r k) * w (ix2 k e) := by
  unfold k0_pay5 k0_pay4
  refine (product_apply _ _ r e).trans ?_
  refine Finset.sum_congr rfl fun k _ => ?_
  rw [shapeCast_self]
  exact congrArg (· * w (ix2 k e)) (shapeCast_1ab_ab_apply x0 shapeCasts_S1x256x1024_S256x1024 r k)

/-- The head split: a row of 1024 features regrouped as 16 heads of 64, the head axis moved in front of the rows, under a
    leading unit axis. Entry (0, h, r, d) is the product's entry (r, 64 h + d). -/
theorem head_split_apply (p : FVec Ideal S256x1024 .f32) (u : Fin 1) (h : Fin 16) (r : Fin 256) (d : Fin 64) :
    k0_pay2 (F := Ideal) p (ix4 u h r d) = p (ix2 r ⟨64 * h.val + d.val, by omega⟩) := by
  unfold k0_pay2
  refine (shapeCast_abc_1abc_apply _ shapeCasts_S16x256x64_S1x16x256x64 u h r d).trans ?_
  refine (transpose_apply [1, 0, 2] _ transposes_S256x16x64_p1_0_2_S16x256x64 (ix3 h r d) (ix3 r h d) (fun b => match b with
    | ⟨0, _⟩ => rfl
    | ⟨1, _⟩ => rfl
    | ⟨2, _⟩ => rfl)).trans ?_
  exact shapeCast_apply p shapeCasts_S256x1024_S256x16x64 (ix3 r h d) (ix2 r ⟨64 * h.val + d.val, by omega⟩) (by
    rw [Shape.rowMajor_val_two, Shape.rowMajor_val_three]
    show r.val * 1024 + (64 * h.val + d.val) = (r.val * 16 + h.val) * 64 + d.val
    omega)

/-- The same head split as the u output spells it. -/
theorem head_split_apply' (p : FVec Ideal S256x1024 .f32) (u : Fin 1) (h : Fin 16) (r : Fin 256) (d : Fin 64) :
    k0_pay3 (F := Ideal) p (ix4 u h r d) = p (ix2 r ⟨64 * h.val + d.val, by omega⟩) :=
  head_split_apply p u h r d

/-- The gated product: p · logistic p of the slab times the weights. -/
theorem gated_product_apply (x0 : Vec Ideal S1x256x1024 .f32) (w : Vec Ideal S1024x1024 .bf16) (r : Fin 256) (e : Fin 1024) :
    k0_pay6 (F := Ideal) x0 w (ix2 r e)
      = (∑ k : Fin 1024, x0 (ix3 (0 : Fin 1) r k) * w (ix2 k e)) * Ideal.logistic (∑ k : Fin 1024, x0 (ix3 (0 : Fin 1) r k) * w (ix2 k e)) := by
  have e5 : k0_pay6 (F := Ideal) x0 w (ix2 r e) = k0_pay5 (F := Ideal) x0 w (ix2 r e) * Ideal.logistic (k0_pay5 (F := Ideal) x0 w (ix2 r e)) := rfl
  rw [e5, slab_product_apply]

/-! ## The reference's v and u, entry by entry

v(b, h, l, d) is the (b, l) row of x against row 64 h + d of the weight matrix; u is the same product, gated. -/

theorem ref_v_apply (x0 : RX) (x3 : RW) (b : Fin 4) (h : Fin 16) (l : Fin 4096) (d : Fin 64) :
    Cert.ReferenceIdeal.Read.val_main_v14 (F := Ideal) x0 x3 (ix4 b h l d)
      = ∑ k : Fin 1024, x0 (ix3 b l k) * x3 (ix2 (⟨64 * h.val + d.val, by omega⟩ : Fin 1024) k) := by
  rw [Cert.ReferenceIdeal.Read.val_main_v14_apply, Cert.ReferenceIdeal.Read.val_main_v13_apply, Cert.ReferenceIdeal.Read.val_main_v12_apply]
  refine Finset.sum_congr rfl fun k _ => ?_
  have el : Cert.ReferenceIdeal.Read.lidx_main_v12 (Cert.ReferenceIdeal.Read.idx_main_v13 (Cert.ReferenceIdeal.Read.idx_main_v14 (ix4 b h l d))) k = ix3 b l k := funext fun a => Fin.ext (by
    match a with
    | ⟨0, _⟩ => show (((b.val * 4096 + l.val) * 16 + h.val) * 64 + d.val) / 4194304 = b.val; omega
    | ⟨1, _⟩ => show (((b.val * 4096 + l.val) * 16 + h.val) * 64 + d.val) / 1024 % 4096 = l.val; omega
    | ⟨2, _⟩ => rfl)
  have er : Cert.ReferenceIdeal.Read.ridx_main_v12 (Cert.ReferenceIdeal.Read.idx_main_v13 (Cert.ReferenceIdeal.Read.idx_main_v14 (ix4 b h l d))) k = ix2 (⟨64 * h.val + d.val, by omega⟩ : Fin 1024) k := funext fun a => Fin.ext (by
    match a with
    | ⟨0, _⟩ => show (((b.val * 4096 + l.val) * 16 + h.val) * 64 + d.val) % 1024 = 64 * h.val + d.val; omega
    | ⟨1, _⟩ => rfl)
  rw [el, er]

theorem ref_gate_apply (x0 : RX) (x4 : RW) (b : Fin 4) (h : Fin 16) (l : Fin 4096) (d : Fin 64) :
    Cert.ReferenceIdeal.Read.val_main_v17 (F := Ideal) x0 x4 (ix4 b h l d)
      = ∑ k : Fin 1024, x0 (ix3 b l k) * x4 (ix2 (⟨64 * h.val + d.val, by omega⟩ : Fin 1024) k) := by
  rw [Cert.ReferenceIdeal.Read.val_main_v17_apply, Cert.ReferenceIdeal.Read.val_main_v16_apply, Cert.ReferenceIdeal.Read.val_main_v15_apply]
  refine Finset.sum_congr rfl fun k _ => ?_
  have el : Cert.ReferenceIdeal.Read.lidx_main_v15 (Cert.ReferenceIdeal.Read.idx_main_v16 (Cert.ReferenceIdeal.Read.idx_main_v17 (ix4 b h l d))) k = ix3 b l k := funext fun a => Fin.ext (by
    match a with
    | ⟨0, _⟩ => show (((b.val * 4096 + l.val) * 16 + h.val) * 64 + d.val) / 4194304 = b.val; omega
    | ⟨1, _⟩ => show (((b.val * 4096 + l.val) * 16 + h.val) * 64 + d.val) / 1024 % 4096 = l.val; omega
    | ⟨2, _⟩ => rfl)
  have er : Cert.ReferenceIdeal.Read.ridx_main_v15 (Cert.ReferenceIdeal.Read.idx_main_v16 (Cert.ReferenceIdeal.Read.idx_main_v17 (ix4 b h l d))) k = ix2 (⟨64 * h.val + d.val, by omega⟩ : Fin 1024) k := funext fun a => Fin.ext (by
    match a with
    | ⟨0, _⟩ => show (((b.val * 4096 + l.val) * 16 + h.val) * 64 + d.val) % 1024 = 64 * h.val + d.val; omega
    | ⟨1, _⟩ => rfl)
  rw [el, er]

/-- The word 0x3F800000 is the real number one. -/
theorem one_word : Ideal.ofBits .f32 0x3F800000#32 = 1 := by
  simp [Ideal.ofBits, Ideal.ieee, -EReal.coe_mul]; norm_num

/-- The reference's u: p · (1 / (1 + exp (-p))) of the product p, which is p · logistic p. -/
theorem ref_u_apply (x0 : RX) (x4 : RW) (b : Fin 4) (h : Fin 16) (l : Fin 4096) (d : Fin 64) :
    Cert.ReferenceIdeal.Read.val_main_v18 (F := Ideal) x0 x4 (ix4 b h l d)
      = (∑ k : Fin 1024, x0 (ix3 b l k) * x4 (ix2 (⟨64 * h.val + d.val, by omega⟩ : Fin 1024) k))
        * Ideal.logistic (∑ k : Fin 1024, x0 (ix3 b l k) * x4 (ix2 (⟨64 * h.val + d.val, by omega⟩ : Fin 1024) k)) := by
  rw [Cert.ReferenceIdeal.Read.val_main_v18_apply, Cert.ReferenceIdeal.Read.val_main_call2_v5_apply, Cert.ReferenceIdeal.Read.val_main_call2_v4_apply,
    Cert.ReferenceIdeal.Read.val_main_call2_cst_0_apply, Cert.ReferenceIdeal.Read.val_main_call2_v3_apply, Cert.ReferenceIdeal.Read.val_main_call2_v2_apply,
    Cert.ReferenceIdeal.Read.val_main_call2_cst_apply, Cert.ReferenceIdeal.Read.val_main_call2_v1_apply, Cert.ReferenceIdeal.Read.val_main_call2_v0_apply,
    ref_gate_apply]
  show _ * Ideal.div (Ideal.ofBits .f32 0x3F800000#32) (Ideal.ofBits .f32 0x3F800000#32 + Ideal.exp (-_)) = _
  rw [one_word]
  rfl

/-! ## The blocks of a grid point

The grid is 4 by 16; point t is (t / 16, t % 16). The slab of x at t is rows 256 (t % 16) … of batch t / 16, the weights'
block is the whole matrix, and the output block is rows 256 (t % 16) … of every head of batch t / 16. -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem point_lt (t : Fin cfg0.N) : t.val < 64 := lt_of_lt_of_eq t.isLt N_0

/-- The block indices of the windows the v and u outputs depend on, decided over the grid. -/
theorem index_facts : ∀ t : Fin cfg0.N,
    win0_0.index t (0 : Fin 3) = t.val / 16 ∧ win0_0.index t (1 : Fin 3) = t.val % 16 ∧ win0_0.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_7.index t (0 : Fin 4) = t.val / 16 ∧ win0_7.index t (1 : Fin 4) = 0 ∧ win0_7.index t (2 : Fin 4) = t.val % 16 ∧ win0_7.index t (3 : Fin 4) = 0
    ∧ win0_8.index t (0 : Fin 4) = t.val / 16 ∧ win0_8.index t (1 : Fin 4) = 0 ∧ win0_8.index t (2 : Fin 4) = t.val % 16 ∧ win0_8.index t (3 : Fin 4) = 0 :=
  (by decide +kernel : ∀ t : Fin grid0.N, _)

/-- The batch of point t, and the array row of the block's row r. -/
def batchOf (t : Fin cfg0.N) : Fin 4 := ⟨t.val / 16, by have := point_lt t; omega⟩
def rowOf (t : Fin cfg0.N) (r : Fin 256) : Fin 4096 := ⟨256 * (t.val % 16) + r.val, by omega⟩

/-- The point's input blocks, at their literal types. -/
abbrev xblk (c : Dev nD) (t : Fin cfg0.N) : Vec Ideal S1x256x1024 .f32 := iblk0 V c 0 t
abbrev wvblk (c : Dev nD) (t : Fin cfg0.N) : Vec Ideal S1024x1024 .bf16 := iblk0 V c 3 t
abbrev wublk (c : Dev nD) (t : Fin cfg0.N) : Vec Ideal S1024x1024 .bf16 := iblk0 V c 4 t

/-- The slab of x at point t. -/
theorem x_block_apply (c : Dev nD) (x0 : RX) (hx : V c main_arg0 = x0) (t : Fin cfg0.N) (u : Fin 1) (r : Fin 256) (k : Fin 1024) :
    xblk V c t (ix3 u r k) = x0 (ix3 (batchOf t) (rowOf t r) k) := by
  obtain ⟨e0, e1, e2, -⟩ := index_facts t
  subst hx
  unfold xblk iblk0
  rw [View.read_apply]
  show V c main_arg0 _ = V c main_arg0 _
  refine congrArg (V c main_arg0) (funext fun a => Fin.ext ?_)
  match a with
  | ⟨0, _⟩ => show win0_0.index t (0 : Fin 3) * 1 + 1 * u.val = t.val / 16; rw [e0]; omega
  | ⟨1, _⟩ => show win0_0.index t (1 : Fin 3) * 256 + 1 * r.val = 256 * (t.val % 16) + r.val; rw [e1]; omega
  | ⟨2, _⟩ => show win0_0.index t (2 : Fin 3) * 1024 + 1 * k.val = k.val; rw [e2]; omega

/-- The v weights' block at any point is the whole transposed matrix: its entry (k, e) is the weights' entry (e, k). -/
theorem wv_block_apply (c : Dev nD) (x3 : RW) (hw : V c main_v5 = wT x3) (t : Fin cfg0.N) (k e : Fin 1024) :
    wvblk V c t (ix2 k e) = x3 (ix2 e k) := by
  obtain ⟨-, -, -, e0, e1, -⟩ := index_facts t
  refine Eq.trans ?_ (wT_apply x3 k e)
  unfold wvblk iblk0
  rw [View.read_apply]
  show V c main_v5 _ = _
  rw [hw]
  refine congrArg (wT (F := Ideal) x3) (funext fun a => Fin.ext ?_)
  match a with
  | ⟨0, _⟩ => show win0_3.index t (0 : Fin 2) * 1024 + 1 * k.val = k.val; rw [e0]; omega
  | ⟨1, _⟩ => show win0_3.index t (1 : Fin 2) * 1024 + 1 * e.val = e.val; rw [e1]; omega

/-- The u weights' block likewise. -/
theorem wu_block_apply (c : Dev nD) (x4 : RW) (hw : V c main_v7 = wT x4) (t : Fin cfg0.N) (k e : Fin 1024) :
    wublk V c t (ix2 k e) = x4 (ix2 e k) := by
  obtain ⟨-, -, -, -, -, e0, e1, -⟩ := index_facts t
  refine Eq.trans ?_ (wT_apply x4 k e)
  unfold wublk iblk0
  rw [View.read_apply]
  show V c main_v7 _ = _
  rw [hw]
  refine congrArg (wT (F := Ideal) x4) (funext fun a => Fin.ext ?_)
  match a with
  | ⟨0, _⟩ => show win0_4.index t (0 : Fin 2) * 1024 + 1 * k.val = k.val; rw [e0]; omega
  | ⟨1, _⟩ => show win0_4.index t (1 : Fin 2) * 1024 + 1 * e.val = e.val; rw [e1]; omega

/-- Where the v block's entry (0, h, r, d) sits in the array. -/
theorem v_block_index (t : Fin cfg0.N) (u : Fin 1) (h : Fin 16) (r : Fin 256) (d : Fin 64) :
    ((cfg0.win 7).blk t).view.emb (ix4 u h r d) = ix4 (batchOf t) h (rowOf t r) d := by
  obtain ⟨-, -, -, -, -, -, -, e0, e1, e2, e3, -⟩ := index_facts t
  refine funext fun a => Fin.ext ?_
  match a with
  | ⟨0, _⟩ => show win0_7.index t (0 : Fin 4) * 1 + 1 * u.val = t.val / 16; rw [e0]; omega
  | ⟨1, _⟩ => show win0_7.index t (1 : Fin 4) * 16 + 1 * h.val = h.val; rw [e1]; omega
  | ⟨2, _⟩ => show win0_7.index t (2 : Fin 4) * 256 + 1 * r.val = 256 * (t.val % 16) + r.val; rw [e2]; omega
  | ⟨3, _⟩ => show win0_7.index t (3 : Fin 4) * 64 + 1 * d.val = d.val; rw [e3]; omega

/-- Where the u block's entry sits. -/
theorem u_block_index (t : Fin cfg0.N) (u : Fin 1) (h : Fin 16) (r : Fin 256) (d : Fin 64) :
    ((cfg0.win 8).blk t).view.emb (ix4 u h r d) = ix4 (batchOf t) h (rowOf t r) d := by
  obtain ⟨-, -, -, -, -, -, -, -, -, -, -, e0, e1, e2, e3⟩ := index_facts t
  refine funext fun a => Fin.ext ?_
  match a with
  | ⟨0, _⟩ => show win0_8.index t (0 : Fin 4) * 1 + 1 * u.val = t.val / 16; rw [e0]; omega
  | ⟨1, _⟩ => show win0_8.index t (1 : Fin 4) * 16 + 1 * h.val = h.val; rw [e1]; omega
  | ⟨2, _⟩ => show win0_8.index t (2 : Fin 4) * 256 + 1 * r.val = 256 * (t.val % 16) + r.val; rw [e2]; omega
  | ⟨3, _⟩ => show win0_8.index t (3 : Fin 4) * 64 + 1 * d.val = d.val; rw [e3]; omega

/-! ## What a point writes back

Block t of the v output is the head split of the slab at t times the transposed v weights, which is block t of the
reference's v: the transposed weights at (k, 64 h + d) are the weights at (64 h + d, k). -/

/-- The v block's entry (0, h, r, d) from the point's input blocks. -/
theorem v_entry (xb : Vec Ideal S1x256x1024 .f32) (wb : Vec Ideal S1024x1024 .bf16) (u : Fin 1) (h : Fin 16) (r : Fin 256) (d : Fin 64) :
    k0_pay2 (F := Ideal) (k0_pay5 (F := Ideal) xb wb) (ix4 u h r d)
      = ∑ k : Fin 1024, xb (ix3 (0 : Fin 1) r k) * wb (ix2 k (⟨64 * h.val + d.val, by omega⟩ : Fin 1024)) :=
  (head_split_apply _ u h r d).trans (slab_product_apply xb wb r _)

/-- The u block's entry. -/
theorem u_entry (xb : Vec Ideal S1x256x1024 .f32) (wb : Vec Ideal S1024x1024 .bf16) (u : Fin 1) (h : Fin 16) (r : Fin 256) (d : Fin 64) :
    k0_pay3 (F := Ideal) (k0_pay6 (F := Ideal) xb wb) (ix4 u h r d)
      = (∑ k : Fin 1024, xb (ix3 (0 : Fin 1) r k) * wb (ix2 k (⟨64 * h.val + d.val, by omega⟩ : Fin 1024)))
        * Ideal.logistic (∑ k : Fin 1024, xb (ix3 (0 : Fin 1) r k) * wb (ix2 k (⟨64 * h.val + d.val, by omega⟩ : Fin 1024))) :=
  (head_split_apply' _ u h r d).trans (gated_product_apply xb wb r _)

/-- The product's terms at point t, from the arrays: x(batch, row, k) times the weights' entry (e, k). -/
theorem v_term (c : Dev nD) (x0 : RX) (x3 : RW) (hx : V c main_arg0 = x0) (hw : V c main_v5 = wT x3) (t : Fin cfg0.N)
    (r : Fin 256) (e k : Fin 1024) :
    xblk V c t (ix3 (0 : Fin 1) r k) * wvblk V c t (ix2 k e) = x0 (ix3 (batchOf t) (rowOf t r) k) * x3 (ix2 e k) := by
  rw [x_block_apply V c x0 hx, wv_block_apply V c x3 hw]

theorem u_term (c : Dev nD) (x0 : RX) (x4 : RW) (hx : V c main_arg0 = x0) (hw : V c main_v7 = wT x4) (t : Fin cfg0.N)
    (r : Fin 256) (e k : Fin 1024) :
    xblk V c t (ix3 (0 : Fin 1) r k) * wublk V c t (ix2 k e) = x0 (ix3 (batchOf t) (rowOf t r) k) * x4 (ix2 e k) := by
  rw [x_block_apply V c x0 hx, wu_block_apply V c x4 hw]

/-- What point t writes back to the v array is block t of the reference's v. -/
theorem v_flushed (c : Dev nD) (x0 : RX) (x3 : RW) (hx : V c main_arg0 = x0) (hw : V c main_v5 = wT x3) (t : Fin cfg0.N) :
    (dat0 V c).flushed 7 t = ((cfg0.win 7).blk t).view.read (Elt Ideal) (Cert.ReferenceIdeal.Read.val_main_v14 (F := Ideal) x0 x3) := by
  show (cfg0.win 7).cut (grid0.coords t) ((dat0 V c).after 7 t) = _
  rw [after0_7]
  unfold out0_7
  rw [View.canon_unit_zero hz4]
  simp only [View.ld_unit_zero (S := S1x256x1024) hz3, View.ld_unit_zero (S := S1024x1024) hz2]
  funext y
  obtain ⟨u, h, r, d, rfl⟩ : ∃ (u : Fin 1) (h : Fin 16) (r : Fin 256) (d : Fin 64), y = ix4 u h r d := ⟨y 0, y 1, y 2, y 3, eq_ix4 y⟩
  rw [View.read_apply]
  refine (v_entry (xblk V c t) (wvblk V c t) u h r d).trans ?_
  refine Eq.trans ?_ (congrArg (Cert.ReferenceIdeal.Read.val_main_v14 (F := Ideal) x0 x3) (v_block_index t u h r d)).symm
  rw [ref_v_apply]
  exact Finset.sum_congr rfl fun k _ => v_term V c x0 x3 hx hw t r _ k

/-- What point t writes back to the u array is block t of the reference's u. -/
theorem u_flushed (c : Dev nD) (x0 : RX) (x4 : RW) (hx : V c main_arg0 = x0) (hw : V c main_v7 = wT x4) (t : Fin cfg0.N) :
    (dat0 V c).flushed 8 t = ((cfg0.win 8).blk t).view.read (Elt Ideal) (Cert.ReferenceIdeal.Read.val_main_v18 (F := Ideal) x0 x4) := by
  show (cfg0.win 8).cut (grid0.coords t) ((dat0 V c).after 8 t) = _
  rw [after0_8]
  unfold out0_8
  rw [View.canon_unit_zero hz4]
  simp only [View.ld_unit_zero (S := S1x256x1024) hz3, View.ld_unit_zero (S := S1024x1024) hz2]
  funext y
  obtain ⟨u, h, r, d, rfl⟩ : ∃ (u : Fin 1) (h : Fin 16) (r : Fin 256) (d : Fin 64), y = ix4 u h r d := ⟨y 0, y 1, y 2, y 3, eq_ix4 y⟩
  rw [View.read_apply]
  refine (u_entry (xblk V c t) (wublk V c t) u h r d).trans ?_
  refine Eq.trans ?_ (congrArg (Cert.ReferenceIdeal.Read.val_main_v18 (F := Ideal) x0 x4) (u_block_index t u h r d)).symm
  rw [ref_u_apply]
  have es : (∑ k : Fin 1024, xblk V c t (ix3 (0 : Fin 1) r k) * wublk V c t (ix2 k (⟨64 * h.val + d.val, by omega⟩ : Fin 1024)))
      = ∑ k : Fin 1024, x0 (ix3 (batchOf t) (rowOf t r) k) * x4 (ix2 (⟨64 * h.val + d.val, by omega⟩ : Fin 1024) k) :=
    Finset.sum_congr rfl fun k _ => u_term V c x0 x4 hx hw t r _ k
  rw [es]

/-! ## The arrays after the run

Index (b, h, l, d) lies in the block of the point (b, l / 256), so the blocks cover the arrays. -/

theorem v_mem_block (t : Fin cfg0.N) (i : S4x16x4096x64.Idx) :
    i ∈ ((cfg0.win 7).blk t).view.set ↔ ∀ a : Fin 4, win0_7.index t a * S1x16x256x64.size a ≤ (i a).val ∧ (i a).val < win0_7.index t a * S1x16x256x64.size a + S1x16x256x64.size a := by
  show i ∈ ((View.whole main_v10_2).slice (win0_7.rect t)).set ↔ _
  rw [View.set_slice_whole, Rect.mem_set_unit]
  exact Iff.rfl

theorem u_mem_block (t : Fin cfg0.N) (i : S4x16x4096x64.Idx) :
    i ∈ ((cfg0.win 8).blk t).view.set ↔ ∀ a : Fin 4, win0_8.index t a * S1x16x256x64.size a ≤ (i a).val ∧ (i a).val < win0_8.index t a * S1x16x256x64.size a + S1x16x256x64.size a := by
  show i ∈ ((View.whole main_v10_3).slice (win0_8.rect t)).set ↔ _
  rw [View.set_slice_whole, Rect.mem_set_unit]
  exact Iff.rfl

theorem v_cover (i : S4x16x4096x64.Idx) : ∃ t : Fin cfg0.N, (cfg0.win 7).flush t = true ∧ i ∈ ((cfg0.win 7).blk t).view.set := by
  have h0 : (i 0).val < 4 := (i 0).isLt
  have h1 : (i 1).val < 16 := (i 1).isLt
  have h2 : (i 2).val < 4096 := (i 2).isLt
  have h3 : (i 3).val < 64 := (i 3).isLt
  obtain ⟨t, ht⟩ : ∃ t : Fin cfg0.N, t.val = 16 * (i 0).val + (i 2).val / 256 :=
    ⟨⟨16 * (i 0).val + (i 2).val / 256, lt_of_lt_of_eq (by omega : 16 * (i 0).val + (i 2).val / 256 < 64) N_0.symm⟩, rfl⟩
  obtain ⟨-, -, -, -, -, -, -, e0, e1, e2, e3, -⟩ := index_facts t
  refine ⟨t, flush0_7 t, ?_⟩
  rw [v_mem_block]
  intro a
  match a with
  | ⟨0, _⟩ => show win0_7.index t (0 : Fin 4) * 1 ≤ (i 0).val ∧ (i 0).val < win0_7.index t (0 : Fin 4) * 1 + 1; rw [e0, ht]; omega
  | ⟨1, _⟩ => show win0_7.index t (1 : Fin 4) * 16 ≤ (i 1).val ∧ (i 1).val < win0_7.index t (1 : Fin 4) * 16 + 16; rw [e1]; omega
  | ⟨2, _⟩ => show win0_7.index t (2 : Fin 4) * 256 ≤ (i 2).val ∧ (i 2).val < win0_7.index t (2 : Fin 4) * 256 + 256; rw [e2, ht]; omega
  | ⟨3, _⟩ => show win0_7.index t (3 : Fin 4) * 64 ≤ (i 3).val ∧ (i 3).val < win0_7.index t (3 : Fin 4) * 64 + 64; rw [e3]; omega

theorem u_cover (i : S4x16x4096x64.Idx) : ∃ t : Fin cfg0.N, (cfg0.win 8).flush t = true ∧ i ∈ ((cfg0.win 8).blk t).view.set := by
  have h0 : (i 0).val < 4 := (i 0).isLt
  have h1 : (i 1).val < 16 := (i 1).isLt
  have h2 : (i 2).val < 4096 := (i 2).isLt
  have h3 : (i 3).val < 64 := (i 3).isLt
  obtain ⟨t, ht⟩ : ∃ t : Fin cfg0.N, t.val = 16 * (i 0).val + (i 2).val / 256 :=
    ⟨⟨16 * (i 0).val + (i 2).val / 256, lt_of_lt_of_eq (by omega : 16 * (i 0).val + (i 2).val / 256 < 64) N_0.symm⟩, rfl⟩
  obtain ⟨-, -, -, -, -, -, -, -, -, -, -, e0, e1, e2, e3⟩ := index_facts t
  refine ⟨t, flush0_8 t, ?_⟩
  rw [u_mem_block]
  intro a
  match a with
  | ⟨0, _⟩ => show win0_8.index t (0 : Fin 4) * 1 ≤ (i 0).val ∧ (i 0).val < win0_8.index t (0 : Fin 4) * 1 + 1; rw [e0, ht]; omega
  | ⟨1, _⟩ => show win0_8.index t (1 : Fin 4) * 16 ≤ (i 1).val ∧ (i 1).val < win0_8.index t (1 : Fin 4) * 16 + 16; rw [e1]; omega
  | ⟨2, _⟩ => show win0_8.index t (2 : Fin 4) * 256 ≤ (i 2).val ∧ (i 2).val < win0_8.index t (2 : Fin 4) * 256 + 256; rw [e2, ht]; omega
  | ⟨3, _⟩ => show win0_8.index t (3 : Fin 4) * 64 ≤ (i 3).val ∧ (i 3).val < win0_8.index t (3 : Fin 4) * 64 + 64; rw [e3]; omega

theorem v_final (c : Dev nD) (x0 : RX) (x3 : RW) (hx : V c main_arg0 = x0) (hw : V c main_v5 = wT x3) :
    (dat0 V c).arrAt 7 cfg0.N = Cert.ReferenceIdeal.Read.val_main_v14 (F := Ideal) x0 x3 :=
  (dat0 V c).arrAt_eq_of_cover 7 (Cert.ReferenceIdeal.Read.val_main_v14 (F := Ideal) x0 x3) (fun t _ => v_flushed V c x0 x3 hx hw t) v_cover

theorem u_final (c : Dev nD) (x0 : RX) (x4 : RW) (hx : V c main_arg0 = x0) (hw : V c main_v7 = wT x4) :
    (dat0 V c).arrAt 8 cfg0.N = Cert.ReferenceIdeal.Read.val_main_v18 (F := Ideal) x0 x4 :=
  (dat0 V c).arrAt_eq_of_cover 8 (Cert.ReferenceIdeal.Read.val_main_v18 (F := Ideal) x0 x4) (fun t _ => u_flushed V c x0 x4 hx hw t) u_cover

end Cert.KernelIdeal.Val0vu

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.ValR1.lean ====
import proofs.«118667_j67336497267250_1_alg».proof.Proof.FrameR1
import proofs.«118667_j67336497267250_1_alg».proof.Proof.ValCommon
import proofs.«118667_j67336497267250_1_alg».proof.Proof.LibBlockSums
import proofs.«118667_j67336497267250_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val1

open Cert.KernelIdeal Cert.KernelIdeal.Gen Cert.KernelIdeal.Fr
open Idealize.ShloMosaic Idealize.ShloMosaic.TcCoe
open Idealize.SL Idealize.SL.Sem
open Idealize.ShloMosaic.Pipeline (Dat Cfg Window)
open Idealize.ShloMosaic.ValueIdx

variable (V : (c : Dev nD) → (b : Ref sig .tc) → Buf (Elt Ideal) ((c : Thread nD τ).loc b))

/-! ## The block product kᵀ·v read at an entry -/

theorem lhs_kv_0 (i : S16x64x64.Idx) (q : dot_S16x1024x64_S16x1024x64_S16x64x64_1_1_2_2_0_0.contr.Idx) :
    (dot_S16x1024x64_S16x1024x64_S16x64x64_1_1_2_2_0_0.lhsIdx i q 0).val = (i 0).val := by
  unfold DotDims.lhsIdx
  rw [dif_pos (show (0 : Fin S16x1024x64.rank) ∈ dot_S16x1024x64_S16x1024x64_S16x64x64_1_1_2_2_0_0.lhsBatch by decide)]
  rfl
theorem lhs_kv_1 (i : S16x64x64.Idx) (q : dot_S16x1024x64_S16x1024x64_S16x64x64_1_1_2_2_0_0.contr.Idx) :
    (dot_S16x1024x64_S16x1024x64_S16x64x64_1_1_2_2_0_0.lhsIdx i q 1).val = (q ⟨0, by decide⟩).val :=
  dot_S16x1024x64_S16x1024x64_S16x64x64_1_1_2_2_0_0.lhsIdx_val_of_single rfl i q
theorem lhs_kv_2 (i : S16x64x64.Idx) (q : dot_S16x1024x64_S16x1024x64_S16x64x64_1_1_2_2_0_0.contr.Idx) :
    (dot_S16x1024x64_S16x1024x64_S16x64x64_1_1_2_2_0_0.lhsIdx i q 2).val = (i 1).val := by
  unfold DotDims.lhsIdx
  rw [dif_neg (show ¬(2 : Fin S16x1024x64.rank) ∈ dot_S16x1024x64_S16x1024x64_S16x64x64_1_1_2_2_0_0.lhsBatch by decide), dif_pos (show (2 : Fin S16x1024x64.rank) ∈ dot_S16x1024x64_S16x1024x64_S16x64x64_1_1_2_2_0_0.lhsNonContracting by decide)]
  rfl
theorem rhs_kv_0 (i : S16x64x64.Idx) (q : dot_S16x1024x64_S16x1024x64_S16x64x64_1_1_2_2_0_0.contr.Idx) :
    (dot_S16x1024x64_S16x1024x64_S16x64x64_1_1_2_2_0_0.rhsIdx i q 0).val = (i 0).val := by
  unfold DotDims.rhsIdx
  rw [dif_pos (show (0 : Fin S16x1024x64.rank) ∈ dot_S16x1024x64_S16x1024x64_S16x64x64_1_1_2_2_0_0.rhsBatch by decide)]
  rfl
theorem rhs_kv_1 (i : S16x64x64.Idx) (q : dot_S16x1024x64_S16x1024x64_S16x64x64_1_1_2_2_0_0.contr.Idx) :
    (dot_S16x1024x64_S16x1024x64_S16x64x64_1_1_2_2_0_0.rhsIdx i q 1).val = (q ⟨0, by decide⟩).val :=
  dot_S16x1024x64_S16x1024x64_S16x64x64_1_1_2_2_0_0.rhsIdx_val_of_single rfl i q
theorem rhs_kv_2 (i : S16x64x64.Idx) (q : dot_S16x1024x64_S16x1024x64_S16x64x64_1_1_2_2_0_0.contr.Idx) :
    (dot_S16x1024x64_S16x1024x64_S16x64x64_1_1_2_2_0_0.rhsIdx i q 2).val = (i 2).val := by
  unfold DotDims.rhsIdx
  rw [dif_neg (show ¬(2 : Fin S16x1024x64.rank) ∈ dot_S16x1024x64_S16x1024x64_S16x64x64_1_1_2_2_0_0.rhsBatch by decide), dif_pos (show (2 : Fin S16x1024x64.rank) ∈ dot_S16x1024x64_S16x1024x64_S16x64x64_1_1_2_2_0_0.rhsNonContracting by decide)]
  rfl

/-- A [1,16,1024,64] block viewed as [16,1024,64] reads (h, l, d) at (0, h, l, d). -/
theorem drop_unit_apply (x : Vec Ideal S1x16x1024x64 .f32) (h : Fin 16) (l : Fin 1024) (d : Fin 64) :
    shapeCast S16x1024x64 x shapeCasts_S1x16x1024x64_S16x1024x64 (ix3 h l d) = x (ix4 (0 : Fin 1) h l d) := by
  refine (shapeCast_dropUnit_apply ![16, 1024, 64] x shapeCasts_S1x16x1024x64_S16x1024x64 (ix3 h l d)).trans ?_
  congr 1
  funext a
  match a with
  | ⟨0, _⟩ => rfl
  | ⟨1, _⟩ => rfl
  | ⟨2, _⟩ => rfl
  | ⟨3, _⟩ => rfl

/-- Entry (h, i, j) of the block product: the sum over the block's 1024 positions of k[h, l, i] · v[h, l, j]. -/
theorem kv_block_apply (x0 x1 : Vec Ideal S1x16x1024x64 .f32) (h : Fin 16) (i j : Fin 64) :
    matmul (F := Ideal) dot_S16x1024x64_S16x1024x64_S16x64x64_1_1_2_2_0_0 none
        (truncf .bf16 (shapeCast S16x1024x64 x0 shapeCasts_S1x16x1024x64_S16x1024x64) bitsLt_bf16_f32)
        (truncf .bf16 (shapeCast S16x1024x64 x1 shapeCasts_S1x16x1024x64_S16x1024x64) bitsLt_bf16_f32)
        (constant S16x64x64 .f32 0x00000000#32) (ix3 h i j)
      = ∑ l : Fin 1024, x0 (ix4 (0 : Fin 1) h l i) * x1 (ix4 (0 : Fin 1) h l j) := by
  simp only [matmul]
  rw [Ideal.matmul_constant_zero_apply, ← Equiv.sum_comp (ValueIdx.contrEquiv1 dot_S16x1024x64_S16x1024x64_S16x64x64_1_1_2_2_0_0 1024 rfl rfl).symm]
  refine Finset.sum_congr rfl fun k _ => ?_
  have hk := ValueIdx.contrEquiv1_symm_val dot_S16x1024x64_S16x1024x64_S16x64x64_1_1_2_2_0_0 1024 rfl rfl k
  have el : dot_S16x1024x64_S16x1024x64_S16x64x64_1_1_2_2_0_0.lhsIdx (ix3 h i j) ((ValueIdx.contrEquiv1 dot_S16x1024x64_S16x1024x64_S16x64x64_1_1_2_2_0_0 1024 rfl rfl).symm k) = ix3 h k i := funext fun a => Fin.ext (by
    match a with
    | ⟨0, _⟩ => exact lhs_kv_0 _ _
    | ⟨1, _⟩ => exact (lhs_kv_1 _ _).trans hk
    | ⟨2, _⟩ => exact lhs_kv_2 _ _)
  have er : dot_S16x1024x64_S16x1024x64_S16x64x64_1_1_2_2_0_0.rhsIdx (ix3 h i j) ((ValueIdx.contrEquiv1 dot_S16x1024x64_S16x1024x64_S16x64x64_1_1_2_2_0_0 1024 rfl rfl).symm k) = ix3 h k j := funext fun a => Fin.ext (by
    match a with
    | ⟨0, _⟩ => exact rhs_kv_0 _ _
    | ⟨1, _⟩ => exact (rhs_kv_1 _ _).trans hk
    | ⟨2, _⟩ => exact rhs_kv_2 _ _)
  rw [el, er]
  show shapeCast S16x1024x64 x0 shapeCasts_S1x16x1024x64_S16x1024x64 (ix3 h k i) * shapeCast S16x1024x64 x1 shapeCasts_S1x16x1024x64_S16x1024x64 (ix3 h k j) = _
  rw [drop_unit_apply, drop_unit_apply]

/-- One point's update of the accumulator, at an entry: what was there plus the block product. -/
theorem pay2_apply (x0 x1 : Vec Ideal S1x16x1024x64 .f32) (acc : Vec Ideal S16x64x64 .f32) (h : Fin 16) (i j : Fin 64) :
    k1_pay2 (F := Ideal) x0 x1 acc (ix3 h i j) = acc (ix3 h i j) + ∑ l : Fin 1024, x0 (ix4 (0 : Fin 1) h l i) * x1 (ix4 (0 : Fin 1) h l j) := by
  unfold k1_pay2
  rw [shapeCast_self]
  exact congrArg (acc (ix3 h i j) + ·) (kv_block_apply x0 x1 h i j)

/-- The cleared accumulator is zero at every entry. -/
theorem pay1_apply (y : S16x64x64.Idx) : k1_pay1 (F := Ideal) y = 0 := by
  unfold k1_pay1
  rw [shapeCast_self]
  exact Ideal.ofBits_zero_f32

/-! ## The blocks of k and v at a grid point, read off the arrays -/

theorem N1 : cfg1.N = 16 := N_1

/-- Point t = (b, s) reads block (b, 0, s, 0) of k. -/
theorem idx_k : ∀ t : Fin cfg1.N, win1_0.index t (0 : Fin 4) = t.val / 4 ∧ win1_0.index t (1 : Fin 4) = 0
    ∧ win1_0.index t (2 : Fin 4) = t.val % 4 ∧ win1_0.index t (3 : Fin 4) = 0 :=
  (by decide +kernel : ∀ t : Fin grid1.N, _)
/-- and the same block of v; -/
theorem idx_v : ∀ t : Fin cfg1.N, win1_1.index t (0 : Fin 4) = t.val / 4 ∧ win1_1.index t (1 : Fin 4) = 0
    ∧ win1_1.index t (2 : Fin 4) = t.val % 4 ∧ win1_1.index t (3 : Fin 4) = 0 :=
  (by decide +kernel : ∀ t : Fin grid1.N, _)
/-- its output block is (b, 0, 0, 0). -/
theorem idx_o : ∀ t : Fin cfg1.N, win1_2.index t (0 : Fin 4) = t.val / 4 ∧ win1_2.index t (1 : Fin 4) = 0
    ∧ win1_2.index t (2 : Fin 4) = 0 ∧ win1_2.index t (3 : Fin 4) = 0 :=
  (by decide +kernel : ∀ t : Fin grid1.N, _)

theorem kblk_apply (c : Dev nD) (t : Fin cfg1.N) (h : Fin 16) (l : Fin 1024) (i : Fin 64)
    (hb : t.val / 4 < 4) (hl : 1024 * (t.val % 4) + l.val < 4096) :
    (iblk1 V c 0 t : Vec Ideal S1x16x1024x64 .f32) (ix4 (0 : Fin 1) h l i)
      = V c main_v10_1 (ix4 (⟨t.val / 4, hb⟩ : Fin 4) h (⟨1024 * (t.val % 4) + l.val, hl⟩ : Fin 4096) i) := by
  obtain ⟨e0, e1, e2, e3⟩ := idx_k t
  unfold iblk1
  rw [View.read_apply]
  show V c main_v10_1 _ = V c main_v10_1 _
  congr 1
  funext a
  apply Fin.ext
  match a with
  | ⟨0, _⟩ => show win1_0.index t (0 : Fin 4) * 1 + 1 * 0 = t.val / 4; rw [e0]; omega
  | ⟨1, _⟩ => show win1_0.index t (1 : Fin 4) * 16 + 1 * h.val = h.val; rw [e1]; omega
  | ⟨2, _⟩ => show win1_0.index t (2 : Fin 4) * 1024 + 1 * l.val = 1024 * (t.val % 4) + l.val; rw [e2]; omega
  | ⟨3, _⟩ => show win1_0.index t (3 : Fin 4) * 64 + 1 * i.val = i.val; rw [e3]; omega

theorem vblk_apply (c : Dev nD) (t : Fin cfg1.N) (h : Fin 16) (l : Fin 1024) (i : Fin 64)
    (hb : t.val / 4 < 4) (hl : 1024 * (t.val % 4) + l.val < 4096) :
    (iblk1 V c 1 t : Vec Ideal S1x16x1024x64 .f32) (ix4 (0 : Fin 1) h l i)
      = V c main_v10_2 (ix4 (⟨t.val / 4, hb⟩ : Fin 4) h (⟨1024 * (t.val % 4) + l.val, hl⟩ : Fin 4096) i) := by
  obtain ⟨e0, e1, e2, e3⟩ := idx_v t
  unfold iblk1
  rw [View.read_apply]
  show V c main_v10_2 _ = V c main_v10_2 _
  congr 1
  funext a
  apply Fin.ext
  match a with
  | ⟨0, _⟩ => show win1_1.index t (0 : Fin 4) * 1 + 1 * 0 = t.val / 4; rw [e0]; omega
  | ⟨1, _⟩ => show win1_1.index t (1 : Fin 4) * 16 + 1 * h.val = h.val; rw [e1]; omega
  | ⟨2, _⟩ => show win1_1.index t (2 : Fin 4) * 1024 + 1 * l.val = 1024 * (t.val % 4) + l.val; rw [e2]; omega
  | ⟨3, _⟩ => show win1_1.index t (3 : Fin 4) * 64 + 1 * i.val = i.val; rw [e3]; omega

/-! ## The accumulator after the last point of a batch row -/

/-- The product k[b,h,n,i]·v[b,h,n,j] at position n of the sequence axis, as a function of every natural
    (zero past the arrays). -/
def term (K W : S4x16x4096x64.Idx → EReal) (b : ℕ) (h : Fin 16) (i j : Fin 64) (n : ℕ) : EReal :=
  if hh : b < 4 ∧ n < 4096 then K (ix4 (⟨b, hh.1⟩ : Fin 4) h (⟨n, hh.2⟩ : Fin 4096) i) * W (ix4 (⟨b, hh.1⟩ : Fin 4) h (⟨n, hh.2⟩ : Fin 4096) j) else 0

/-- What grid point n adds to entry y of the accumulator: the products over its block of 1024 positions. -/
def addend (K W : S4x16x4096x64.Idx → EReal) (n : ℕ) (y : S16x64x64.Idx) : EReal :=
  ∑ l : Fin 1024, term K W (n / 4) (y 0) (y 1) (y 2) (1024 * (n % 4) + l.val)

/-- One point's update, over the arrays: the accumulator plus that point's addend. -/
theorem pay2_blk (c : Dev nD) (t : Fin cfg1.N) (acc : Vec Ideal S16x64x64 .f32) (y : S16x64x64.Idx) :
    k1_pay2 (F := Ideal) (iblk1 V c 0 t) (iblk1 V c 1 t) acc y = acc y + addend (V c main_v10_1) (V c main_v10_2) t.val y := by
  obtain ⟨h, i, j, rfl⟩ : ∃ (h : Fin 16) (i j : Fin 64), y = ix3 h i j := ⟨y 0, y 1, y 2, eq_ix3 y⟩
  have ht : t.val < 16 := N1 ▸ t.isLt
  have hb : t.val / 4 < 4 := by omega
  refine (pay2_apply _ _ acc h i j).trans ?_
  refine congrArg (acc (ix3 h i j) + ·) ?_
  unfold addend
  refine Finset.sum_congr rfl fun l _ => ?_
  have hl : 1024 * (t.val % 4) + l.val < 4096 := by have := l.isLt; omega
  rw [kblk_apply V c t h l i hb hl, vblk_apply V c t h l j hb hl]
  show _ = term _ _ (t.val / 4) h i j _
  unfold term
  rw [dif_pos ⟨hb, hl⟩]

/-- After the fourth point of batch row q the accumulator holds, at every entry, the four points' addends. -/
theorem acc_last (c : Dev nD) (q : ℕ) (hq : 4 * q + 3 < cfg1.N) (y : S16x64x64.Idx) :
    accAt1 V c (4 * q + 3) hq y = 0 + ∑ s ∈ Finset.range 4, addend (V c main_v10_1) (V c main_v10_2) (4 * q + s) y := by
  have e := Pipeline.eq_accAt (accAt1 V c) 4
    (fun n hn => reset1 (iblk1 V c 0 ⟨n, hn⟩) (iblk1 V c 1 ⟨n, hn⟩))
    (fun n hn acc => step1 (iblk1 V c 0 ⟨n, hn⟩) (iblk1 V c 1 ⟨n, hn⟩) acc)
    (fun n hn hm => accAt1_reset V c ⟨n, hn⟩ hm)
    (fun n hn hm => if_neg hm) q 3 (by decide) hq
  rw [e]
  exact Pipeline.accAt_add_apply (β := EReal) _ _ (fun _ => 0) (addend (V c main_v10_1) (V c main_v10_2)) (4 * q) 3
    (fun hn y => by
      show k1_pay2 (F := Ideal) (iblk1 V c 0 ⟨4 * q, hn⟩) (iblk1 V c 1 ⟨4 * q, hn⟩) (k1_pay1 (F := Ideal)) y = _
      rw [pay2_blk V c ⟨4 * q, hn⟩, pay1_apply])
    (fun n hn acc y _ _ => pay2_blk V c ⟨n, hn⟩ acc y)
    3 le_rfl hq y

/-! ## Four blocks of 1024 positions are the 4096 positions -/

/-- The four points' addends of batch row b are the one sum over the sequence axis. -/
theorem sum_addends (K W : S4x16x4096x64.Idx → EReal) (b : Fin 4) (h : Fin 16) (i j : Fin 64) :
    ∑ s ∈ Finset.range 4, addend K W (4 * b.val + s) (ix3 h i j) = ∑ k : Fin 4096, K (ix4 b h k i) * W (ix4 b h k j) := by
  have e : ∀ s ∈ Finset.range 4, addend K W (4 * b.val + s) (ix3 h i j) = ∑ l : Fin 1024, term K W b.val h i j (1024 * s + l.val) := by
    intro s hs
    have hs' := Finset.mem_range.mp hs
    unfold addend
    rw [show (4 * b.val + s) / 4 = b.val by omega, show (4 * b.val + s) % 4 = s by omega]
  rw [Finset.sum_congr rfl e, Idealize.ShloMosaic.BlockSums.sum_blocks (term K W b.val h i j) 1024 4]
  show ∑ n ∈ Finset.range 4096, _ = _
  rw [← Fin.sum_univ_eq_sum_range (fun n => term K W b.val h i j n) 4096]
  refine Finset.sum_congr rfl fun k _ => ?_
  unfold term
  rw [dif_pos ⟨b.isLt, k.isLt⟩]

theorem accAt1_congr (c : Dev nD) {n m : ℕ} (e : n = m) (hn : n < cfg1.N) (hm : m < cfg1.N) :
    accAt1 V c n hn = accAt1 V c m hm := by
  subst e; rfl

/-! ## What a flushing point writes back is its block of the reference's kᵀ·v -/

theorem flushed_eq (c : Dev nD) (x0 : RX) (x2 x3 : RW)
    (hk : V c main_v10_1 = Cert.ReferenceIdeal.Read.val_main_v11 (F := Ideal) x0 x2)
    (hv : V c main_v10_2 = Cert.ReferenceIdeal.Read.val_main_v14 (F := Ideal) x0 x3)
    (t : Fin cfg1.N) (hf : (cfg1.win 2).flush t = true) :
    (dat1 V c).flushed 2 t = ((cfg1.win 2).blk t).view.read (Elt Ideal) (Cert.ReferenceIdeal.Read.val_main_v19 (F := Ideal) x0 x2 x3) := by
  have h3 : t.val % 4 = 3 := (flush1_2 t).mp hf
  have ht : t.val < 16 := N1 ▸ t.isLt
  have hb : t.val / 4 < 4 := by omega
  have hq : 4 * (t.val / 4) + 3 < cfg1.N := by have hN := N1; omega
  obtain ⟨e0, e1, e2, e3⟩ := idx_o t
  show (cfg1.win 2).cut (grid1.coords t) ((dat1 V c).after 2 t) = _
  rw [after1_2]
  funext y
  obtain ⟨z, h, i, j, rfl⟩ : ∃ (z : Fin 1) (h : Fin 16) (i j : Fin 64), y = ix4 z h i j := ⟨y 0, y 1, y 2, y 3, eq_ix4 y⟩
  rw [View.read_apply]
  show k1_pay3 (accAt1 V c t.val t.isLt) (ix4 z h i j) = Cert.ReferenceIdeal.Read.val_main_v19 (F := Ideal) x0 x2 x3 (((cfg1.win 2).blk t).view.emb (ix4 z h i j))
  have hz : z.val = 0 := by have := z.isLt; omega
  have hemb : ((cfg1.win 2).blk t).view.emb (ix4 z h i j) = ix4 (⟨t.val / 4, hb⟩ : Fin 4) h i j := by
    funext a
    apply Fin.ext
    match a with
    | ⟨0, _⟩ => show win1_2.index t (0 : Fin 4) * 1 + 1 * z.val = t.val / 4; rw [e0]; omega
    | ⟨1, _⟩ => show win1_2.index t (1 : Fin 4) * 16 + 1 * h.val = h.val; rw [e1]; omega
    | ⟨2, _⟩ => show win1_2.index t (2 : Fin 4) * 64 + 1 * i.val = i.val; rw [e2]; omega
    | ⟨3, _⟩ => show win1_2.index t (3 : Fin 4) * 64 + 1 * j.val = j.val; rw [e3]; omega
  have hl : ∀ k : Fin 4096, Cert.ReferenceIdeal.Read.lidx_main_v19 (ix4 (⟨t.val / 4, hb⟩ : Fin 4) h i j) k = ix4 (⟨t.val / 4, hb⟩ : Fin 4) h k i :=
    fun k => funext fun a => by
      match a with
      | ⟨0, _⟩ => rfl
      | ⟨1, _⟩ => rfl
      | ⟨2, _⟩ => rfl
      | ⟨3, _⟩ => rfl
  have hr : ∀ k : Fin 4096, Cert.ReferenceIdeal.Read.ridx_main_v19 (ix4 (⟨t.val / 4, hb⟩ : Fin 4) h i j) k = ix4 (⟨t.val / 4, hb⟩ : Fin 4) h k j :=
    fun k => funext fun a => by
      match a with
      | ⟨0, _⟩ => rfl
      | ⟨1, _⟩ => rfl
      | ⟨2, _⟩ => rfl
      | ⟨3, _⟩ => rfl
  rw [hemb, Cert.ReferenceIdeal.Read.val_main_v19_apply]
  simp only [hl, hr]
  rw [← hk, ← hv, ← sum_addends (V c main_v10_1) (V c main_v10_2) (⟨t.val / 4, hb⟩ : Fin 4) h i j]
  unfold k1_pay3
  refine (shapeCast_addUnit_apply ![16, 64, 64] _ shapeCasts_S16x64x64_S1x16x64x64 (ix4 z h i j)).trans ?_
  have hy : (fun a : Fin 3 => (ix4 z h i j) a.succ) = ix3 h i j := funext fun a => by
    match a with
    | ⟨0, _⟩ => rfl
    | ⟨1, _⟩ => rfl
    | ⟨2, _⟩ => rfl
  rw [hy, accAt1_congr V c (show t.val = 4 * (t.val / 4) + 3 by omega) t.isLt hq, acc_last V c (t.val / 4) hq (ix3 h i j), zero_add]

/-! ## The whole array

Every entry (b, h, i, j) of the state array lies in the block written back at the fourth point of batch row b, and what
that point writes back is its block of the reference's kᵀ·v; so the array ends holding the reference's kᵀ·v. -/

theorem kv_final (c : Dev nD) (x0 : RX) (x2 x3 : RW)
    (hk : V c main_v10_1 = Cert.ReferenceIdeal.Read.val_main_v11 (F := Ideal) x0 x2)
    (hv : V c main_v10_2 = Cert.ReferenceIdeal.Read.val_main_v14 (F := Ideal) x0 x3) :
    (dat1 V c).arrAt 2 cfg1.N = Cert.ReferenceIdeal.Read.val_main_v19 (F := Ideal) x0 x2 x3 := by
  exact (dat1 V c).arrAt_eq_of_cover 2 (Cert.ReferenceIdeal.Read.val_main_v19 (F := Ideal) x0 x2 x3)
    (fun t hf => flushed_eq V c x0 x2 x3 hk hv t hf) fun y => by
      have h0 : (y 0 : Nat) < 4 := (y 0).isLt
      have h1 : (y 1 : Nat) < 16 := (y 1).isLt
      have h2 : (y 2 : Nat) < 64 := (y 2).isLt
      have h3 : (y 3 : Nat) < 64 := (y 3).isLt
      have hN := N1
      have ht : 4 * (y 0 : Nat) + 3 < cfg1.N := by omega
      obtain ⟨e0, e1, e2, e3⟩ := idx_o ⟨4 * (y 0 : Nat) + 3, ht⟩
      refine ⟨⟨4 * (y 0 : Nat) + 3, ht⟩, (flush1_2 _).mpr (by show (4 * (y 0 : Nat) + 3) % 4 = 3; omega), ?_⟩
      show y ∈ ((View.whole main_v11).slice (win1_2.rect ⟨4 * (y 0 : Nat) + 3, ht⟩)).set
      rw [View.set_slice_whole, Rect.mem_set_unit]
      intro a
      match a with
      | ⟨0, _⟩ =>
        show win1_2.index ⟨4 * (y 0 : Nat) + 3, ht⟩ (0 : Fin 4) * 1 ≤ (y 0 : Nat) ∧ (y 0 : Nat) < win1_2.index ⟨4 * (y 0 : Nat) + 3, ht⟩ (0 : Fin 4) * 1 + 1
        rw [e0]; show (4 * (y 0 : Nat) + 3) / 4 * 1 ≤ (y 0 : Nat) ∧ (y 0 : Nat) < (4 * (y 0 : Nat) + 3) / 4 * 1 + 1; omega
      | ⟨1, _⟩ =>
        show win1_2.index ⟨4 * (y 0 : Nat) + 3, ht⟩ (1 : Fin 4) * 16 ≤ (y 1 : Nat) ∧ (y 1 : Nat) < win1_2.index ⟨4 * (y 0 : Nat) + 3, ht⟩ (1 : Fin 4) * 16 + 16
        rw [e1]; omega
      | ⟨2, _⟩ =>
        show win1_2.index ⟨4 * (y 0 : Nat) + 3, ht⟩ (2 : Fin 4) * 64 ≤ (y 2 : Nat) ∧ (y 2 : Nat) < win1_2.index ⟨4 * (y 0 : Nat) + 3, ht⟩ (2 : Fin 4) * 64 + 64
        rw [e2]; omega
      | ⟨3, _⟩ =>
        show win1_2.index ⟨4 * (y 0 : Nat) + 3, ht⟩ (3 : Fin 4) * 64 ≤ (y 3 : Nat) ∧ (y 3 : Nat) < win1_2.index ⟨4 * (y 0 : Nat) + 3, ht⟩ (3 : Fin 4) * 64 + 64
        rw [e3]; omega

end Cert.KernelIdeal.Val1

end
-- ==== Proof.ValR2.lean ====
import proofs.«118667_j67336497267250_1_alg».proof.Proof.FrameR2
import proofs.«118667_j67336497267250_1_alg».proof.Proof.ValCommon
import proofs.«118667_j67336497267250_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val2

open Cert.KernelIdeal Cert.KernelIdeal.Gen Cert.KernelIdeal.Fr
open Idealize.ShloMosaic Idealize.ShloMosaic.TcCoe
open Idealize.SL Idealize.SL.Sem
open Idealize.ShloMosaic.Pipeline (Dat Cfg Window)
open Idealize.ShloMosaic.ValueIdx

/-! ## The body's two products, read at an index

The first product contracts the feature axis of a head's q rows with the first feature axis of that head's
state; the second contracts the merged 1024 features of a row with the rows of the transposed weights. -/

theorem lhs_qs_0 (i : S16x512x64.Idx) (q : dot_S16x512x64_S16x64x64_S16x512x64_2_1_1_2_0_0.contr.Idx) :
    (dot_S16x512x64_S16x64x64_S16x512x64_2_1_1_2_0_0.lhsIdx i q 0).val = (i 0).val := by
  unfold DotDims.lhsIdx
  rw [dif_pos (show (0 : Fin S16x512x64.rank) ∈ dot_S16x512x64_S16x64x64_S16x512x64_2_1_1_2_0_0.lhsBatch by decide)]
  rfl
theorem lhs_qs_1 (i : S16x512x64.Idx) (q : dot_S16x512x64_S16x64x64_S16x512x64_2_1_1_2_0_0.contr.Idx) :
    (dot_S16x512x64_S16x64x64_S16x512x64_2_1_1_2_0_0.lhsIdx i q 1).val = (i 1).val := by
  unfold DotDims.lhsIdx
  rw [dif_neg (show ¬(1 : Fin S16x512x64.rank) ∈ dot_S16x512x64_S16x64x64_S16x512x64_2_1_1_2_0_0.lhsBatch by decide), dif_pos (show (1 : Fin S16x512x64.rank) ∈ dot_S16x512x64_S16x64x64_S16x512x64_2_1_1_2_0_0.lhsNonContracting by decide)]
  rfl
theorem lhs_qs_2 (i : S16x512x64.Idx) (q : dot_S16x512x64_S16x64x64_S16x512x64_2_1_1_2_0_0.contr.Idx) :
    (dot_S16x512x64_S16x64x64_S16x512x64_2_1_1_2_0_0.lhsIdx i q 2).val = (q ⟨0, by decide⟩).val :=
  dot_S16x512x64_S16x64x64_S16x512x64_2_1_1_2_0_0.lhsIdx_val_of_single rfl i q
theorem rhs_qs_0 (i : S16x512x64.Idx) (q : dot_S16x512x64_S16x64x64_S16x512x64_2_1_1_2_0_0.contr.Idx) :
    (dot_S16x512x64_S16x64x64_S16x512x64_2_1_1_2_0_0.rhsIdx i q 0).val = (i 0).val := by
  unfold DotDims.rhsIdx
  rw [dif_pos (show (0 : Fin S16x64x64.rank) ∈ dot_S16x512x64_S16x64x64_S16x512x64_2_1_1_2_0_0.rhsBatch by decide)]
  rfl
theorem rhs_qs_1 (i : S16x512x64.Idx) (q : dot_S16x512x64_S16x64x64_S16x512x64_2_1_1_2_0_0.contr.Idx) :
    (dot_S16x512x64_S16x64x64_S16x512x64_2_1_1_2_0_0.rhsIdx i q 1).val = (q ⟨0, by decide⟩).val :=
  dot_S16x512x64_S16x64x64_S16x512x64_2_1_1_2_0_0.rhsIdx_val_of_single rfl i q
theorem rhs_qs_2 (i : S16x512x64.Idx) (q : dot_S16x512x64_S16x64x64_S16x512x64_2_1_1_2_0_0.contr.Idx) :
    (dot_S16x512x64_S16x64x64_S16x512x64_2_1_1_2_0_0.rhsIdx i q 2).val = (i 2).val := by
  unfold DotDims.rhsIdx
  rw [dif_neg (show ¬(2 : Fin S16x64x64.rank) ∈ dot_S16x512x64_S16x64x64_S16x512x64_2_1_1_2_0_0.rhsBatch by decide), dif_pos (show (2 : Fin S16x64x64.rank) ∈ dot_S16x512x64_S16x64x64_S16x512x64_2_1_1_2_0_0.rhsNonContracting by decide)]
  rfl

/-- Head h, row r, feature j of q times the state: the sum over the contracted feature i. -/
theorem qs_apply (a : FVec Ideal S16x512x64 .bf16) (b : FVec Ideal S16x64x64 .bf16) (h : Fin 16) (r : Fin 512) (j : Fin 64) :
    matmul dot_S16x512x64_S16x64x64_S16x512x64_2_1_1_2_0_0 none a b (constant (F := Ideal) S16x512x64 .f32 0x00000000#32) (ix3 h r j)
      = ∑ i : Fin 64, a (ix3 h r i) * b (ix3 h i j) := by
  simp only [matmul]
  rw [Ideal.matmul_constant_zero_apply, ← Equiv.sum_comp (ValueIdx.contrEquiv1 dot_S16x512x64_S16x64x64_S16x512x64_2_1_1_2_0_0 64 rfl rfl).symm]
  refine Finset.sum_congr rfl fun k _ => ?_
  have hk := ValueIdx.contrEquiv1_symm_val dot_S16x512x64_S16x64x64_S16x512x64_2_1_1_2_0_0 64 rfl rfl k
  have el : dot_S16x512x64_S16x64x64_S16x512x64_2_1_1_2_0_0.lhsIdx (ix3 h r j) ((ValueIdx.contrEquiv1 dot_S16x512x64_S16x64x64_S16x512x64_2_1_1_2_0_0 64 rfl rfl).symm k) = ix3 h r k := funext fun a => Fin.ext (by
    match a with
    | ⟨0, _⟩ => exact lhs_qs_0 _ _
    | ⟨1, _⟩ => exact lhs_qs_1 _ _
    | ⟨2, _⟩ => exact (lhs_qs_2 _ _).trans hk)
  have er : dot_S16x512x64_S16x64x64_S16x512x64_2_1_1_2_0_0.rhsIdx (ix3 h r j) ((ValueIdx.contrEquiv1 dot_S16x512x64_S16x64x64_S16x512x64_2_1_1_2_0_0 64 rfl rfl).symm k) = ix3 h k j := funext fun a => Fin.ext (by
    match a with
    | ⟨0, _⟩ => exact rhs_qs_0 _ _
    | ⟨1, _⟩ => exact (rhs_qs_1 _ _).trans hk
    | ⟨2, _⟩ => exact rhs_qs_2 _ _)
  rw [el, er]

theorem lhs_ow_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_ow_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_ow_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_ow_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Row r, output feature e of the merged rows times the weights: the sum over the merged feature c. -/
theorem ow_apply (a : FVec Ideal S512x1024 .bf16) (b : FVec Ideal S1024x1024 .bf16) (r : Fin 512) (e : Fin 1024) :
    matmul dot_S512x1024_S1024x1024_S512x1024_1_0_0_1_n_n none a b (constant (F := Ideal) S512x1024 .f32 0x00000000#32) (ix2 r e)
      = ∑ c : Fin 1024, a (ix2 r c) * b (ix2 c e) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r e) ((ValueIdx.contrEquiv1 dot_S512x1024_S1024x1024_S512x1024_1_0_0_1_n_n 1024 rfl rfl).symm k) = ix2 r k := funext fun a => Fin.ext (by
    match a with
    | ⟨0, _⟩ => exact lhs_ow_0 _ _
    | ⟨1, _⟩ => exact (lhs_ow_1 _ _).trans hk)
  have er : dot_S512x1024_S1024x1024_S512x1024_1_0_0_1_n_n.rhsIdx (ix2 r e) ((ValueIdx.contrEquiv1 dot_S512x1024_S1024x1024_S512x1024_1_0_0_1_n_n 1024 rfl rfl).symm k) = ix2 k e := funext fun a => Fin.ext (by
    match a with
    | ⟨0, _⟩ => exact (rhs_ow_0 _ _).trans hk
    | ⟨1, _⟩ => exact rhs_ow_1 _ _)
  rw [el, er]

/-- The sum over a row's 64 features. -/
theorem rowSum_apply (s : FVec Ideal S16x512x64 .f32) (h : Fin 16) (r : Fin 512) :
    multiReduction (F := Ideal) .add [2] S16x512 s 0x00000000#32 reduces_S16x512x64_S16x512 (.inl rfl) rfl (ix2 h r)
      = ∑ j : Fin 64, s (ix3 h r j) := by
  refine (Ideal.multiReduction_add_single s 0x00000000#32 reduces_S16x512x64_S16x512 (.inl rfl) rfl (ix2 h r)).trans ?_
  refine Finset.sum_congr rfl fun k _ => ?_
  exact congrArg s (funext fun a => Fin.ext (by match a with | ⟨0, _⟩ => rfl | ⟨1, _⟩ => rfl | ⟨2, _⟩ => rfl))

/-! ## The body's layout operations, read at an index -/

section Layout
variable {α : Type}

/-- A [1,16,512,64] block seen as [16,512,64]. -/
theorem dropQ_apply (x : S1x16x512x64.Idx → α) (h : Fin 16) (r : Fin 512) (i : Fin 64) :
    shapeCast S16x512x64 x shapeCasts_S1x16x512x64_S16x512x64 (ix3 h r i) = x (ix4 (0 : Fin 1) h r i) :=
  shapeCast_apply x shapeCasts_S1x16x512x64_S16x512x64 (ix3 h r i) (ix4 (0 : Fin 1) h r i)
    (by rewrite [Shape.rowMajor_val_four, Shape.rowMajor_val_three]
        show (((0 : Nat) * 16 + h.val) * 512 + r.val) * 64 + i.val = (h.val * 512 + r.val) * 64 + i.val
        omega)

/-- A [1,16,64,64] block seen as [16,64,64]. -/
theorem dropS_apply (x : S1x16x64x64.Idx → α) (h : Fin 16) (i j : Fin 64) :
    shapeCast S16x64x64 x shapeCasts_S1x16x64x64_S16x64x64 (ix3 h i j) = x (ix4 (0 : Fin 1) h i j) :=
  shapeCast_apply x shapeCasts_S1x16x64x64_S16x64x64 (ix3 h i j) (ix4 (0 : Fin 1) h i j)
    (by rewrite [Shape.rowMajor_val_four, Shape.rowMajor_val_three]
        show (((0 : Nat) * 16 + h.val) * 64 + i.val) * 64 + j.val = (h.val * 64 + i.val) * 64 + j.val
        omega)

/-- A [16,512] array of row values seen as a [16,512,1] column. -/
theorem col_apply (x : S16x512.Idx → α) (h : Fin 16) (r : Fin 512) :
    shapeCast S16x512x1 x shapeCasts_S16x512_S16x512x1 (ix3 h r (0 : Fin 1)) = x (ix2 h r) :=
  shapeCast_apply x shapeCasts_S16x512_S16x512x1 (ix3 h r (0 : Fin 1)) (ix2 h r)
    (by rewrite [Shape.rowMajor_val_two, Shape.rowMajor_val_three]
        show h.val * 512 + r.val = (h.val * 512 + r.val) * 1 + (0 : Nat)
        omega)

/-- The column spread back over the 64 features. -/
theorem spread_apply (x : S16x512x1.Idx → α) (h : Fin 16) (r : Fin 512) (j : Fin 64) :
    broadcastTo S16x512x64 x broadcasts_S16x512x1_S16x512x64 (ix3 h r j) = x (ix3 h r (0 : Fin 1)) :=
  broadcastTo_apply x broadcasts_S16x512x1_S16x512x64 (ix3 h r j) (ix3 h r (0 : Fin 1)) (fun a => match a with
    | ⟨0, _⟩ => by show h.val = if (16 : Nat) = 1 then 0 else h.val; rw [if_neg (by decide)]
    | ⟨1, _⟩ => by show r.val = if (512 : Nat) = 1 then 0 else r.val; rw [if_neg (by decide)]
    | ⟨2, _⟩ => by show (0 : Nat) = if (1 : Nat) = 1 then 0 else j.val; rw [if_pos rfl])

/-- Heads and rows exchanged. -/
theorem swap_apply (x : S16x512x64.Idx → α) (h : Fin 16) (r : Fin 512) (j : Fin 64) :
    transpose S512x16x64 [1, 0, 2] x transposes_S16x512x64_p1_0_2_S512x16x64 (ix3 r h j) = x (ix3 h r j) :=
  transpose_apply [1, 0, 2] x transposes_S16x512x64_p1_0_2_S512x16x64 (ix3 r h j) (ix3 h r j) (fun b => match b with
    | ⟨0, _⟩ => rfl
    | ⟨1, _⟩ => rfl
    | ⟨2, _⟩ => rfl)

/-- The heads merged into rows of 1024 features: feature c is feature c % 64 of head c / 64. -/
theorem merge_apply (x : S512x16x64.Idx → α) (r : Fin 512) (c : Fin 1024) :
    shapeCast S512x1024 x shapeCasts_S512x16x64_S512x1024 (ix2 r c)
      = x (ix3 r (⟨c.val / 64, by have := c.isLt; omega⟩ : Fin 16) (⟨c.val % 64, Nat.mod_lt _ (by decide)⟩ : Fin 64)) :=
  shapeCast_apply x shapeCasts_S512x16x64_S512x1024 (ix2 r c) _
    (by rewrite [Shape.rowMajor_val_three, Shape.rowMajor_val_two]
        show (r.val * 16 + c.val / 64) * 64 + c.val % 64 = r.val * 1024 + c.val
        omega)

/-- A [512,1024] slab seen as a [1,512,1024] block. -/
theorem addUnit_apply (x : S512x1024.Idx → α) (r : Fin 512) (e : Fin 1024) :
    shapeCast S1x512x1024 x shapeCasts_S512x1024_S1x512x1024 (ix3 (0 : Fin 1) r e) = x (ix2 r e) :=
  shapeCast_apply x shapeCasts_S512x1024_S1x512x1024 (ix3 (0 : Fin 1) r e) (ix2 r e)
    (by rewrite [Shape.rowMajor_val_two, Shape.rowMajor_val_three]
        show r.val * 1024 + e.val = ((0 : Nat) * 512 + r.val) * 1024 + e.val
        omega)

end Layout

/-! ## One point's slab from its four blocks

The body computes, head by head, o = q · state; divides each row of o by the larger of the norm of the row scaled by
1/8 and a floor; gates it by u; merges the 16 heads of a row into 1024 features and multiplies by the weights. -/

/-- The scale 1/8 and the floor of the norm, as the words both programs carry. -/
abbrev scaleLit : EReal := Ideal.ofBits .f32 0x3E000000#32
abbrev floorLit : EReal := Ideal.ofBits .f32 0x2B8CBCCC#32

/-- From one head's row o of 64 features and the gate's entry g: feature j of the row over the larger of the norm of
    the scaled row and the floor, times g. -/
def gateRow (o : Fin 64 → EReal) (g : EReal) (j : Fin 64) : EReal :=
  Ideal.div (o j) (max (Ideal.sqrt (∑ k : Fin 64, (o k * scaleLit) * (o k * scaleLit))) floorLit) * g

/-- Head by head, the q block times the state block (both narrowed, which changes nothing on the extended reals). -/
def headProd (q : Vec Ideal S1x16x512x64 .f32) (kv : Vec Ideal S1x16x64x64 .f32) : FVec Ideal S16x512x64 .f32 :=
  matmul dot_S16x512x64_S16x64x64_S16x512x64_2_1_1_2_0_0 none
    (truncf .bf16 (shapeCast S16x512x64 q shapeCasts_S1x16x512x64_S16x512x64) bitsLt_bf16_f32)
    (truncf .bf16 (shapeCast S16x64x64 kv shapeCasts_S1x16x64x64_S16x64x64) bitsLt_bf16_f32)
    (constant (F := Ideal) S16x512x64 .f32 0x00000000#32)

/-- Each row of the product divided by the larger of its scaled norm and the floor, times the gate block. -/
def gated (o : FVec Ideal S16x512x64 .f32) (u : Vec Ideal S1x16x512x64 .f32) : FVec Ideal S16x512x64 .f32 :=
  mulf
    (divf o
      (broadcastTo S16x512x64
        (maximumf
          (sqrt (shapeCast S16x512x1
            (multiReduction (F := Ideal) .add [2] S16x512
              (mulf (mulf o (broadcast S16x512x64 (Scalar.ofBits .f32 0x3E000000#32)))
                (mulf o (broadcast S16x512x64 (Scalar.ofBits .f32 0x3E000000#32))))
              0x00000000#32 reduces_S16x512x64_S16x512 (.inl rfl) rfl)
            shapeCasts_S16x512_S16x512x1))
          (broadcast S16x512x1 (Scalar.ofBits .f32 0x2B8CBCCC#32)))
        broadcasts_S16x512x1_S16x512x64))
    (shapeCast S16x512x64 u shapeCasts_S1x16x512x64_S16x512x64)

/-- The heads merged into rows of 1024 features, times the weights, as a [1,512,1024] block. -/
def projected (g : FVec Ideal S16x512x64 .f32) (w : Vec Ideal S1024x1024 .bf16) : FVec Ideal S1x512x1024 .f32 :=
  shapeCast S1x512x1024
    (matmul (φ₁ := .bf16) (φ₂ := .bf16) dot_S512x1024_S1024x1024_S512x1024_1_0_0_1_n_n none
      (truncf .bf16 (shapeCast S512x1024 (transpose S512x16x64 [1, 0, 2] g transposes_S16x512x64_p1_0_2_S512x16x64)
        shapeCasts_S512x16x64_S512x1024) bitsLt_bf16_f32)
      (shapeCast S1024x1024 w shapeCasts_S1024x1024_S1024x1024)
      (constant (F := Ideal) S512x1024 .f32 0x00000000#32))
    shapeCasts_S512x1024_S1x512x1024

/-- The body's payload is these three steps. -/
theorem pay_eq (q u : Vec Ideal S1x16x512x64 .f32) (kv : Vec Ideal S1x16x64x64 .f32) (w : Vec Ideal S1024x1024 .bf16) :
    k2_pay1 (F := Ideal) q u kv w = projected (gated (headProd q kv) u) w := rfl

theorem headProd_apply (q : Vec Ideal S1x16x512x64 .f32) (kv : Vec Ideal S1x16x64x64 .f32) (h : Fin 16) (r : Fin 512) (j : Fin 64) :
    headProd q kv (ix3 h r j) = ∑ i : Fin 64, q (ix4 (0 : Fin 1) h r i) * kv (ix4 (0 : Fin 1) h i j) := by
  unfold headProd
  refine (qs_apply _ _ h r j).trans ?_
  refine Finset.sum_congr rfl fun i _ => ?_
  show shapeCast S16x512x64 q shapeCasts_S1x16x512x64_S16x512x64 (ix3 h r i) * shapeCast S16x64x64 kv shapeCasts_S1x16x64x64_S16x64x64 (ix3 h i j) = _
  rw [dropQ_apply, dropS_apply]

theorem gated_apply (o : FVec Ideal S16x512x64 .f32) (u : Vec Ideal S1x16x512x64 .f32) (h : Fin 16) (r : Fin 512) (j : Fin 64) :
    gated o u (ix3 h r j) = gateRow (fun k => o (ix3 h r k)) (u (ix4 (0 : Fin 1) h r j)) j := by
  unfold gated gateRow
  show Ideal.div (o (ix3 h r j)) (broadcastTo S16x512x64 _ broadcasts_S16x512x1_S16x512x64 (ix3 h r j)) * shapeCast S16x512x64 u shapeCasts_S1x16x512x64_S16x512x64 (ix3 h r j) = _
  rw [spread_apply, dropQ_apply]
  show Ideal.div (o (ix3 h r j)) (max (Ideal.sqrt (shapeCast S16x512x1 _ shapeCasts_S16x512_S16x512x1 (ix3 h r (0 : Fin 1)))) floorLit) * _ = _
  rw [col_apply, rowSum_apply]
  rfl

theorem projected_apply (g : FVec Ideal S16x512x64 .f32) (w : Vec Ideal S1024x1024 .bf16) (r : Fin 512) (e : Fin 1024) :
    projected g w (ix3 (0 : Fin 1) r e)
      = ∑ c : Fin 1024, g (ix3 (⟨c.val / 64, by have := c.isLt; omega⟩ : Fin 16) r (⟨c.val % 64, Nat.mod_lt _ (by decide)⟩ : Fin 64)) * w (ix2 c e) := by
  unfold projected
  refine (addUnit_apply _ r e).trans ?_
  refine (ow_apply _ _ r e).trans ?_
  refine Finset.sum_congr rfl fun c _ => ?_
  show shapeCast S512x1024 (transpose S512x16x64 [1, 0, 2] g transposes_S16x512x64_p1_0_2_S512x16x64) shapeCasts_S512x16x64_S512x1024 (ix2 r c)
    * shapeCast S1024x1024 w shapeCasts_S1024x1024_S1024x1024 (ix2 c e) = _
  rw [merge_apply, swap_apply, shapeCast_self]

/-- One point's slab at row r, output feature e, from the point's four blocks. -/
theorem pay_apply (q u : Vec Ideal S1x16x512x64 .f32) (kv : Vec Ideal S1x16x64x64 .f32) (w : Vec Ideal S1024x1024 .bf16)
    (r : Fin 512) (e : Fin 1024) :
    k2_pay1 (F := Ideal) q u kv w (ix3 (0 : Fin 1) r e)
      = ∑ c : Fin 1024,
          gateRow (fun k => ∑ i : Fin 64, q (ix4 (0 : Fin 1) (⟨c.val / 64, by have := c.isLt; omega⟩ : Fin 16) r i)
              * kv (ix4 (0 : Fin 1) (⟨c.val / 64, by have := c.isLt; omega⟩ : Fin 16) i k))
            (u (ix4 (0 : Fin 1) (⟨c.val / 64, by have := c.isLt; omega⟩ : Fin 16) r (⟨c.val % 64, Nat.mod_lt _ (by decide)⟩ : Fin 64)))
            (⟨c.val % 64, Nat.mod_lt _ (by decide)⟩ : Fin 64)
          * w (ix2 c e) := by
  rw [pay_eq, projected_apply]
  refine Finset.sum_congr rfl fun c _ => ?_
  rw [gated_apply]
  simp only [headProd_apply]

/-! ## The reference's result, read at an index

The stages after the q, u and state stages: the per-head product (stage 20), its row norm with the same scale and
floor, the gate, the heads merged, and the product with the output weights (stage 31). -/

section Reference
open Cert.ReferenceIdeal.Read

variable (x0 : RX) (x1 x2 x3 x4 x5 : RW)

theorem lidx20 (b : Fin 4) (h : Fin 16) (l : Fin 4096) (j i : Fin 64) :
    lidx_main_v20 (ix4 b h l j) i = ix4 b h l i :=
  funext fun a => Fin.ext (by match a with | ⟨0, _⟩ => rfl | ⟨1, _⟩ => rfl | ⟨2, _⟩ => rfl | ⟨3, _⟩ => rfl)

theorem ridx20 (b : Fin 4) (h : Fin 16) (l : Fin 4096) (j i : Fin 64) :
    ridx_main_v20 (ix4 b h l j) i = ix4 b h i j :=
  funext fun a => Fin.ext (by match a with | ⟨0, _⟩ => rfl | ⟨1, _⟩ => rfl | ⟨2, _⟩ => rfl | ⟨3, _⟩ => rfl)

/-- Stage 20 at batch b, head h, row l, feature j: the sum over the contracted feature. -/
theorem v20_apply (b : Fin 4) (h : Fin 16) (l : Fin 4096) (j : Fin 64) :
    val_main_v20 (F := Ideal) x0 x1 x2 x3 (ix4 b h l j)
      = ∑ i : Fin 64, val_main_v5 (F := Ideal) x0 x1 (ix4 b h l i) * val_main_v19 (F := Ideal) x0 x2 x3 (ix4 b h i j) := by
  rw [val_main_v20_apply]
  refine Finset.sum_congr rfl fun i _ => ?_
  rw [lidx20, ridx20]

theorem idxNorm (b : Fin 4) (h : Fin 16) (l : Fin 4096) (j k : Fin 64) :
    idx_main_call3_v1 (idx_main_call3_v2 (idx_main_v26 (ix4 b h l j))) k = ix4 b h l k :=
  funext fun a => Fin.ext (by match a with | ⟨0, _⟩ => rfl | ⟨1, _⟩ => rfl | ⟨2, _⟩ => rfl | ⟨3, _⟩ => rfl)

/-- Stage 28 (normalised and gated) at an index, from stage 20's row and the gate stage. -/
theorem v28_apply (b : Fin 4) (h : Fin 16) (l : Fin 4096) (j : Fin 64) :
    val_main_v28 (F := Ideal) x0 x1 x2 x3 x4 (ix4 b h l j)
      = gateRow (fun k => val_main_v20 (F := Ideal) x0 x1 x2 x3 (ix4 b h l k)) (val_main_v18 (F := Ideal) x0 x4 (ix4 b h l j)) j := by
  rw [val_main_v28_apply, val_main_v27_apply, val_main_v26_apply, val_main_v25_apply, val_main_v23_apply,
    val_main_call3_v2_apply, val_main_call3_v1_apply, val_main_v24_apply, val_main_cst_2_apply, val_main_call3_cst_apply]
  simp only [val_main_call3_v0_apply, val_main_v22_apply, val_main_v21_apply, val_main_cst_1_apply, idxNorm]
  unfold gateRow
  show Ideal.div _ (max (Ideal.sqrt (Ideal.ofBits .f32 0x00000000#32 + _)) _) * _ = _
  rw [Ideal.ofBits_zero_f32, zero_add]
  rfl

theorem idxMerge (b : Fin 4) (l : Fin 4096) (c : Fin 1024) :
    idx_main_v29 (idx_main_v30 (ix3 b l c))
      = ix4 b (⟨c.val / 64, by have := c.isLt; omega⟩ : Fin 16) l (⟨c.val % 64, Nat.mod_lt _ (by decide)⟩ : Fin 64) :=
  funext fun a => Fin.ext (by
    have hb := b.isLt; have hl := l.isLt; have hc := c.isLt
    match a with
    | ⟨0, _⟩ => show ((b.val * 4096 + l.val) * 1024 + c.val) / 4194304 = b.val; omega
    | ⟨1, _⟩ => show ((b.val * 4096 + l.val) * 1024 + c.val) / 64 % 16 = c.val / 64; omega
    | ⟨2, _⟩ => show ((b.val * 4096 + l.val) * 1024 + c.val) / 1024 % 4096 = l.val; omega
    | ⟨3, _⟩ => show ((b.val * 4096 + l.val) * 1024 + c.val) % 64 = c.val % 64; omega)

/-- The reference's result at batch b, row l, output feature e. -/
theorem ref_apply (b : Fin 4) (l : Fin 4096) (e : Fin 1024) :
    val_main_v31 (F := Ideal) x0 x1 x2 x3 x4 x5 (ix3 b l e)
      = ∑ c : Fin 1024,
          gateRow (fun k => ∑ i : Fin 64, val_main_v5 (F := Ideal) x0 x1 (ix4 b (⟨c.val / 64, by have := c.isLt; omega⟩ : Fin 16) l i)
              * val_main_v19 (F := Ideal) x0 x2 x3 (ix4 b (⟨c.val / 64, by have := c.isLt; omega⟩ : Fin 16) i k))
            (val_main_v18 (F := Ideal) x0 x4 (ix4 b (⟨c.val / 64, by have := c.isLt; omega⟩ : Fin 16) l (⟨c.val % 64, Nat.mod_lt _ (by decide)⟩ : Fin 64)))
            (⟨c.val % 64, Nat.mod_lt _ (by decide)⟩ : Fin 64)
          * x5 (ix2 e c) := by
  rw [val_main_v31_apply]
  refine Finset.sum_congr rfl fun c _ => ?_
  have el : lidx_main_v31 (ix3 b l e) c = ix3 b l c :=
    funext fun a => Fin.ext (by match a with | ⟨0, _⟩ => rfl | ⟨1, _⟩ => rfl | ⟨2, _⟩ => rfl)
  have er : ridx_main_v31 (ix3 b l e) c = ix2 e c :=
    funext fun a => Fin.ext (by match a with | ⟨0, _⟩ => rfl | ⟨1, _⟩ => rfl)
  rw [el, er, val_main_v30_apply, val_main_v29_apply, idxMerge, v28_apply]
  simp only [v20_apply]

end Reference

/-! ## The blocks of a point

Point t of the 4 × 8 grid is batch t / 8 and row block t % 8. The q and u blocks are rows 512·(t % 8) … of batch t / 8 (all
heads), the state block is batch t / 8's state, the weights' block is the whole matrix, and the result's block is rows
512·(t % 8) … of batch t / 8. -/

variable (V : (c : Dev nD) → (b : Ref sig .tc) → Buf (Elt Ideal) ((c : Thread nD τ).loc b))

/-- The printed index maps, decided over the grid. -/
theorem idx_facts : ∀ t : Fin cfg2.N,
    (win2_0.index t (0 : Fin 4) = t.val / 8 ∧ win2_0.index t (1 : Fin 4) = 0 ∧ win2_0.index t (2 : Fin 4) = t.val % 8 ∧ win2_0.index t (3 : Fin 4) = 0)
    ∧ (win2_1.index t (0 : Fin 4) = t.val / 8 ∧ win2_1.index t (1 : Fin 4) = 0 ∧ win2_1.index t (2 : Fin 4) = t.val % 8 ∧ win2_1.index t (3 : Fin 4) = 0)
    ∧ (win2_2.index t (0 : Fin 4) = t.val / 8 ∧ win2_2.index t (1 : Fin 4) = 0 ∧ win2_2.index t (2 : Fin 4) = 0 ∧ win2_2.index t (3 : Fin 4) = 0)
    ∧ (win2_3.index t (0 : Fin 2) = 0 ∧ win2_3.index t (1 : Fin 2) = 0)
    ∧ (win2_4.index t (0 : Fin 3) = t.val / 8 ∧ win2_4.index t (1 : Fin 3) = t.val % 8 ∧ win2_4.index t (2 : Fin 3) = 0) :=
  (by decide +kernel : ∀ t : Fin grid2.N, _)

theorem blkQ (c : Dev nD) (t : Fin cfg2.N) (bi : Fin 4) (li : Fin 8) (ht : t.val = bi.val * 8 + li.val)
    (h : Fin 16) (r : Fin 512) (i : Fin 64) :
    (iblk2 V c 0 t : Vec Ideal S1x16x512x64 .f32) (ix4 (0 : Fin 1) h r i)
      = (V c main_v10_0 : S4x16x4096x64.Idx → EReal) (ix4 bi h (⟨li.val * 512 + r.val, by have := li.isLt; have := r.isLt; omega⟩ : Fin 4096) i) := by
  obtain ⟨⟨e0, e1, e2, e3⟩, -⟩ := idx_facts t
  have hli := li.isLt
  unfold iblk2
  rw [View.read_apply]
  show V c main_v10_0 _ = V c main_v10_0 _
  congr 1
  funext a
  apply Fin.ext
  match a with
  | ⟨0, _⟩ => show win2_0.index t (0 : Fin 4) * 1 + 1 * (0 : Nat) = bi.val; omega
  | ⟨1, _⟩ => show win2_0.index t (1 : Fin 4) * 16 + 1 * h.val = h.val; omega
  | ⟨2, _⟩ => show win2_0.index t (2 : Fin 4) * 512 + 1 * r.val = li.val * 512 + r.val; omega
  | ⟨3, _⟩ => show win2_0.index t (3 : Fin 4) * 64 + 1 * i.val = i.val; omega

theorem blkU (c : Dev nD) (t : Fin cfg2.N) (bi : Fin 4) (li : Fin 8) (ht : t.val = bi.val * 8 + li.val)
    (h : Fin 16) (r : Fin 512) (j : Fin 64) :
    (iblk2 V c 1 t : Vec Ideal S1x16x512x64 .f32) (ix4 (0 : Fin 1) h r j)
      = (V c main_v10_3 : S4x16x4096x64.Idx → EReal) (ix4 bi h (⟨li.val * 512 + r.val, by have := li.isLt; have := r.isLt; omega⟩ : Fin 4096) j) := by
  obtain ⟨-, ⟨e0, e1, e2, e3⟩, -⟩ := idx_facts t
  have hli := li.isLt
  unfold iblk2
  rw [View.read_apply]
  show V c main_v10_3 _ = V c main_v10_3 _
  congr 1
  funext a
  apply Fin.ext
  match a with
  | ⟨0, _⟩ => show win2_1.index t (0 : Fin 4) * 1 + 1 * (0 : Nat) = bi.val; omega
  | ⟨1, _⟩ => show win2_1.index t (1 : Fin 4) * 16 + 1 * h.val = h.val; omega
  | ⟨2, _⟩ => show win2_1.index t (2 : Fin 4) * 512 + 1 * r.val = li.val * 512 + r.val; omega
  | ⟨3, _⟩ => show win2_1.index t (3 : Fin 4) * 64 + 1 * j.val = j.val; omega

theorem blkS (c : Dev nD) (t : Fin cfg2.N) (bi : Fin 4) (li : Fin 8) (ht : t.val = bi.val * 8 + li.val)
    (h : Fin 16) (i j : Fin 64) :
    (iblk2 V c 2 t : Vec Ideal S1x16x64x64 .f32) (ix4 (0 : Fin 1) h i j)
      = (V c main_v11 : S4x16x64x64.Idx → EReal) (ix4 bi h i j) := by
  obtain ⟨-, -, ⟨e0, e1, e2, e3⟩, -⟩ := idx_facts t
  have hli := li.isLt
  unfold iblk2
  rw [View.read_apply]
  show V c main_v11 _ = V c main_v11 _
  congr 1
  funext a
  apply Fin.ext
  match a with
  | ⟨0, _⟩ => show win2_2.index t (0 : Fin 4) * 1 + 1 * (0 : Nat) = bi.val; omega
  | ⟨1, _⟩ => show win2_2.index t (1 : Fin 4) * 16 + 1 * h.val = h.val; omega
  | ⟨2, _⟩ => show win2_2.index t (2 : Fin 4) * 64 + 1 * i.val = i.val; omega
  | ⟨3, _⟩ => show win2_2.index t (3 : Fin 4) * 64 + 1 * j.val = j.val; omega

theorem blkW (c : Dev nD) (t : Fin cfg2.N) (k e : Fin 1024) :
    (iblk2 V c 3 t : Vec Ideal S1024x1024 .bf16) (ix2 k e) = (V c main_v9 : S1024x1024.Idx → EReal) (ix2 k e) := by
  obtain ⟨-, -, -, ⟨e0, e1⟩, -⟩ := idx_facts t
  unfold iblk2
  rw [View.read_apply]
  show V c main_v9 _ = V c main_v9 _
  congr 1
  funext a
  apply Fin.ext
  match a with
  | ⟨0, _⟩ => show win2_3.index t (0 : Fin 2) * 1024 + 1 * k.val = k.val; omega
  | ⟨1, _⟩ => show win2_3.index t (1 : Fin 2) * 1024 + 1 * e.val = e.val; omega

/-- A [1,512,1024] slab P is the result window's block at point t of a whole array G when it agrees with G on rows
    512·(t % 8) … of batch t / 8. -/
theorem blkOut (t : Fin cfg2.N) (bi : Fin 4) (li : Fin 8) (ht : t.val = bi.val * 8 + li.val)
    (G : S4x4096x1024.Idx → EReal) (P : S1x512x1024.Idx → EReal)
    (hP : ∀ (r : Fin 512) (e : Fin 1024),
      P (ix3 (0 : Fin 1) r e) = G (ix3 bi (⟨li.val * 512 + r.val, by have := li.isLt; have := r.isLt; omega⟩ : Fin 4096) e)) :
    P = ((cfg2.win 4).blk t).view.read (Elt Ideal) G := by
  obtain ⟨-, -, -, -, ⟨e0, e1, e2⟩⟩ := idx_facts t
  have hli := li.isLt
  funext y
  obtain ⟨z, r, e, rfl⟩ : ∃ (z : Fin 1) (r : Fin 512) (e : Fin 1024), y = ix3 z r e := ⟨y 0, y 1, y 2, eq_ix3 y⟩
  obtain rfl : z = 0 := Fin.ext (by have := z.isLt; omega)
  rw [hP r e, View.read_apply]
  show G _ = G _
  congr 1
  funext a
  apply Fin.ext
  match a with
  | ⟨0, _⟩ => show bi.val = win2_4.index t (0 : Fin 3) * 1 + 1 * (0 : Nat); omega
  | ⟨1, _⟩ => show li.val * 512 + r.val = win2_4.index t (1 : Fin 3) * 512 + 1 * r.val; omega
  | ⟨2, _⟩ => show e.val = win2_4.index t (2 : Fin 3) * 1024 + 1 * e.val; omega

/-- The transposed weights at (c, e) are the weights at (e, c). -/
theorem wT_at (W : RW) (k e : Fin 1024) : wT (F := Ideal) W (ix2 k e) = W (ix2 e k) := by
  unfold wT
  show transpose S1024x1024 [1, 0] W transposes_S1024x1024_S1024x1024_1_0 (ix2 k e) = _
  exact transpose_apply [1, 0] W transposes_S1024x1024_S1024x1024_1_0 (ix2 k e) (ix2 e k) (fun b => match b with
    | ⟨0, _⟩ => rfl
    | ⟨1, _⟩ => rfl)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- What point t writes back is block t of the reference's result. -/
theorem flushed_eq (c : Dev nD) (x0 : RX) (x1 x2 x3 x4 x5 : RW)
    (hq : V c main_v10_0 = Cert.ReferenceIdeal.Read.val_main_v5 (F := Ideal) x0 x1)
    (hu : V c main_v10_3 = Cert.ReferenceIdeal.Read.val_main_v18 (F := Ideal) x0 x4)
    (hkv : V c main_v11 = Cert.ReferenceIdeal.Read.val_main_v19 (F := Ideal) x0 x2 x3)
    (hw : V c main_v9 = wT x5) (t : Fin cfg2.N) :
    (dat2 V c).flushed 4 t
      = ((cfg2.win 4).blk t).view.read (Elt Ideal) (Cert.ReferenceIdeal.Read.val_main_v31 (F := Ideal) x0 x1 x2 x3 x4 x5) := by
  have hN : t.val < 32 := lt_of_lt_of_eq t.isLt N_2
  have ht : t.val = (⟨t.val / 8, by omega⟩ : Fin 4).val * 8 + (⟨t.val % 8, by omega⟩ : Fin 8).val := by
    show t.val = t.val / 8 * 8 + t.val % 8; omega
  show (cfg2.win 4).cut (grid2.coords t) ((dat2 V c).after 4 t) = _
  rw [after2_4]
  unfold out2_4
  rw [View.canon_unit_zero hz3]
  simp only [View.ld_unit_zero (S := S1x16x512x64) hz4, View.ld_unit_zero (S := S1x16x64x64) hz4, View.ld_unit_zero (S := S1024x1024) hz2]
  refine blkOut t (⟨t.val / 8, by omega⟩ : Fin 4) (⟨t.val % 8, by omega⟩ : Fin 8) ht _ _ fun r e => ?_
  refine (pay_apply (iblk2 V c 0 t) (iblk2 V c 1 t) (iblk2 V c 2 t) (iblk2 V c 3 t) r e).trans ?_
  rw [ref_apply]
  refine Finset.sum_congr rfl fun k _ => ?_
  rw [blkU V c t _ _ ht, blkW V c t, hw, wT_at, hu]
  simp only [blkQ V c t _ _ ht, blkS V c t _ _ ht, hq, hkv]

/-- Every index of the result lies in the block of the point of its batch and row block. -/
theorem cover (i : S4x4096x1024.Idx) :
    ∃ t : Fin cfg2.N, (cfg2.win 4).flush t = true ∧ i ∈ ((cfg2.win 4).blk t).view.set := by
  have h0 : (i 0).val < 4 := (i 0).isLt
  have h1 : (i 1).val < 4096 := (i 1).isLt
  have h2 : (i 2).val < 1024 := (i 2).isLt
  have hN : cfg2.N = 32 := N_2
  obtain ⟨t, ht⟩ : ∃ t : Fin cfg2.N, t.val = (i 0).val * 8 + (i 1).val / 512 := ⟨⟨(i 0).val * 8 + (i 1).val / 512, by rw [hN]; omega⟩, rfl⟩
  obtain ⟨-, -, -, -, ⟨e0, e1, e2⟩⟩ := idx_facts t
  refine ⟨t, flush2_4 t, ?_⟩
  show i ∈ ((View.whole main_v12).slice (win2_4.rect t)).set
  rw [View.set_slice_whole, Rect.mem_set_unit]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 512 ≤ (i 1).val ∧ (i 1).val < win2_4.index t (1 : Fin 3) * 512 + 512; omega
  | ⟨2, _⟩ => show win2_4.index t (2 : Fin 3) * 1024 ≤ (i 2).val ∧ (i 2).val < win2_4.index t (2 : Fin 3) * 1024 + 1024; omega

theorem out_final (c : Dev nD) (x0 : RX) (x1 x2 x3 x4 x5 : RW)
    (hq : V c main_v10_0 = Cert.ReferenceIdeal.Read.val_main_v5 (F := Ideal) x0 x1)
    (hu : V c main_v10_3 = Cert.ReferenceIdeal.Read.val_main_v18 (F := Ideal) x0 x4)
    (hkv : V c main_v11 = Cert.ReferenceIdeal.Read.val_main_v19 (F := Ideal) x0 x2 x3)
    (hw : V c main_v9 = wT x5) :
    (dat2 V c).arrAt 4 cfg2.N = Cert.ReferenceIdeal.Read.val_main_v31 (F := Ideal) x0 x1 x2 x3 x4 x5 :=
  (dat2 V c).arrAt_eq_of_cover 4 _ (fun t _ => flushed_eq V c x0 x1 x2 x3 x4 x5 hq hu hkv hw t) cover

end Cert.KernelIdeal.Val2

end
-- ==== Proof.Glue.lean ====
import proofs.«118667_j67336497267250_1_alg».proof.Proof.FrameRun
import proofs.«118667_j67336497267250_1_alg».proof.Proof.ValR0qk
import proofs.«118667_j67336497267250_1_alg».proof.Proof.ValR0vu
import proofs.«118667_j67336497267250_1_alg».proof.Proof.ValR1
import proofs.«118667_j67336497267250_1_alg».proof.Proof.ValR2

noncomputable section

/-!
# The three regions composed: the kernel program's result is the reference's

Region 0 is entered with x and the transposed weights and leaves q, k, v, u as the reference computes them; region 1 is
entered with those k and v and leaves the reference's state; region 2 is entered with q, u, the state and the transposed
output weights and leaves the reference's result. Each step is the region's own value theorem at the contents the run
hands it.
-/

namespace Cert.KernelIdeal.Glue

open Cert.KernelIdeal Cert.KernelIdeal.Gen Cert.KernelIdeal.Fr
open Idealize.ShloMosaic Idealize.ShloMosaic.TcCoe
open Idealize.SL Idealize.SL.Sem

variable (m : (ℓ : Loc nD τ sig) → Buf (Elt Ideal) ℓ) (ρ : Dev nD → PrngReg)

/-- What the third region leaves in the result array, as a function of the launch contents of the six arguments: the
    reference's last stage. -/
theorem result_eq (c : Dev nD) :
    (dat2 (V3 m ρ) c).arrAt 4 cfg2.N
      = Cert.ReferenceIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have hq := (V3_main_v10_0 m ρ c).trans
    (Val0qk.q_final (V1 m ρ) c _ _ (V1_main_arg0 m ρ c) (V1_main_v1 m ρ c))
  have hu := (V3_main_v10_3 m ρ c).trans
    (Val0vu.u_final (V1 m ρ) c _ _ (V1_main_arg0 m ρ c) (V1_main_v7 m ρ c))
  have hk := (V2_main_v10_1 m ρ c).trans
    (Val0qk.k_final (V1 m ρ) c _ _ (V1_main_arg0 m ρ c) (V1_main_v3 m ρ c))
  have hv := (V2_main_v10_2 m ρ c).trans
    (Val0vu.v_final (V1 m ρ) c _ _ (V1_main_arg0 m ρ c) (V1_main_v5 m ρ c))
  have hkv := (V3_main_v11 m ρ c).trans (Val1.kv_final (V2 m ρ) c _ _ _ hk hv)
  exact Val2.out_final (V3 m ρ) c _ _ _ _ _ _ hq hu hkv (V3_main_v9 m ρ c)

end Cert.KernelIdeal.Glue

end
-- ==== Proof.lean ====
import proofs.«118667_j67336497267250_1_alg».proof.Defs
import proofs.«118667_j67336497267250_1_alg».proof.Proof.Gen.Kernel
import proofs.«118667_j67336497267250_1_alg».proof.Proof.Gen.KernelIdeal
import proofs.«118667_j67336497267250_1_alg».proof.Proof.Gen.ReferenceIdeal
import proofs.«118667_j67336497267250_1_alg».proof.Proof.Gen.Pre_finite_inputs
import proofs.«118667_j67336497267250_1_alg».proof.Proof.Gen.ReferenceIdeal.Run
import proofs.«118667_j67336497267250_1_alg».proof.Proof.Gen.ReferenceIdeal.Read
import proofs.«118667_j67336497267250_1_alg».proof.Proof.KFrameRun
import proofs.«118667_j67336497267250_1_alg».proof.Proof.FrameRun
import proofs.«118667_j67336497267250_1_alg».proof.Proof.Glue
import Idealize.ShloMosaic.Adequacy
import Idealize.ShloMosaic.Init

/-!
# The certificate: retention attention in three kernels against its jnp reference

The kernel program transposes and narrows the five weight matrices on the host and runs three pallas_calls: the
projections q, k, v, u of x with the head split; the per-head state Σ_l k ⊗ v, accumulated over four blocks of positions in
a scratch buffer; and q times the state, normalised per row, gated by u, heads merged, times the output weights. At the
extended reals every array the kernels leave is the reference's own stage: narrowing is the identity, a product with 1/8
is a quotient by 8, the kernel's logistic is 1/(1 + exp(−x)) by definition, and a sum of 4096 terms is the sum of four
blocks of 1024. The frames run the three regions through the several-regions launch, the same text at both float
instances; the ideal pass rewrote nothing, so `preserves` is trivial; the precondition is never opened.
-/

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result arrays. -/
theorem algebraic : Cert.algebraic_KernelIdeal_ReferenceIdeal := by
  intro m ρ m' ρ' _ hagree
  refine ⟨fun c => (Cert.KernelIdeal.Fr.dat2 (Cert.KernelIdeal.Fr.V3 m ρ) c).arrAt 4 Cert.KernelIdeal.cfg2.N,
    Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1,
    (hagree c).2.2.2.2.1, (hagree c).2.2.2.2.2]
  exact (Cert.KernelIdeal.Glue.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
